-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x192x192 : Shape := ⟨4, ![8, 96, 192, 192]⟩
abbrev S25x5x5 : Shape := ⟨3, ![25, 5, 5]⟩
abbrev S8x192x192 : Shape := ⟨3, ![8, 192, 192]⟩
abbrev S_ : Shape := ⟨0, ![]⟩

class Facts : Prop where
  bcast_S_S8x96x192x192 : S_.BroadcastsInDim S8x96x192x192 (![] : Fin 0 → Fin S8x96x192x192.rank)
  reducesTo_S8x96x192x192_S_d0_1_2_3 : S8x96x192x192.ReducesTo [0, 1, 2, 3] S_
  h_S_ : 0 < S_.numel
  bcast_S_S25x5x5 : S_.BroadcastsInDim S25x5x5 (![] : Fin 0 → Fin S25x5x5.rank)
  reducesTo_S25x5x5_S_d0_1_2 : S25x5x5.ReducesTo [0, 1, 2] S_
  bcast_S_S8x192x192 : S_.BroadcastsInDim S8x192x192 (![] : Fin 0 → Fin S8x192x192.rank)
  reducesTo_S8x192x192_S_d0_1_2 : S8x192x192.ReducesTo [0, 1, 2] S_

variable [Facts]

def fn {F : FTy → Type} [FloatOps F] (main_arg0 : FVec F S8x96x192x192 .f32) (main_arg1 : FVec F S25x5x5 .f32) (main_arg2 : IVec S8x192x192 32) : IVec S_ 1 :=
  let main_v0 : FVec F S8x96x192x192 .f32 := Host.absf main_arg0
  let main_cst : FVec F S_ .f32 := constant S_ .f32 0x7F800000#32
  let main_v1 : FVec F S8x96x192x192 .f32 := broadcastInDim S8x96x192x192 ![] bcast_S_S8x96x192x192 main_cst
  let main_v2 : IVec S8x96x192x192 1 := cmpf .olt main_v0 main_v1
  let main_c : IVec S_ 1 := constantI S_ 1 1#1
  let main_v3 : IVec S_ 1 := (fun x v => Host.reduce IntOp.andi x v reducesTo_S8x96x192x192_S_d0_1_2_3 h_S_) main_v2 main_c
  let main_v4 : FVec F S25x5x5 .f32 := Host.absf main_arg1
  let main_cst_0 : FVec F S_ .f32 := constant S_ .f32 0x7F800000#32
  let main_v5 : FVec F S25x5x5 .f32 := broadcastInDim S25x5x5 ![] bcast_S_S25x5x5 main_cst_0
  let main_v6 : IVec S25x5x5 1 := cmpf .olt main_v4 main_v5
  let main_c_1 : IVec S_ 1 := constantI S_ 1 1#1
  let main_v7 : IVec S_ 1 := (fun x v => Host.reduce IntOp.andi x v reducesTo_S25x5x5_S_d0_1_2 h_S_) main_v6 main_c_1
  let main_v8 : IVec S_ 1 := andi main_v3 main_v7
  let main_c_2 : IVec S_ 32 := constantI S_ 32 0#32
  let main_v9 : IVec S8x192x192 32 := broadcastInDim S8x192x192 ![] bcast_S_S8x192x192 main_c_2
  let main_v10 : IVec S8x192x192 1 := cmpi .sge main_arg2 main_v9
  let main_c_3 : IVec S_ 32 := constantI S_ 32 25#32
  let main_v11 : IVec S8x192x192 32 := broadcastInDim S8x192x192 ![] bcast_S_S8x192x192 main_c_3
  let main_v12 : IVec S8x192x192 1 := cmpi .slt main_arg2 main_v11
  let main_v13 : IVec S8x192x192 1 := andi main_v10 main_v12
  let main_c_4 : IVec S_ 1 := constantI S_ 1 1#1
  let main_v14 : IVec S_ 1 := (fun x v => Host.reduce IntOp.andi x v reducesTo_S8x192x192_S_d0_1_2 h_S_) main_v13 main_c_4
  let main_v15 : IVec S_ 1 := andi main_v8 main_v14
  main_v15
-- ==== Kernel.lean ====
abbrev S8x96x192x192 : Shape := ⟨4, ![8, 96, 192, 192]⟩
abbrev S25x5x5 : Shape := ⟨3, ![25, 5, 5]⟩
abbrev S8x192x192 : Shape := ⟨3, ![8, 192, 192]⟩
abbrev S25x25 : Shape := ⟨2, ![25, 25]⟩
abbrev S1x16x192x192 : Shape := ⟨4, ![1, 16, 192, 192]⟩
abbrev S1x192x192 : Shape := ⟨3, ![1, 192, 192]⟩
abbrev S16x196x196 : Shape := ⟨3, ![16, 196, 196]⟩
abbrev S16x2x196 : Shape := ⟨3, ![16, 2, 196]⟩
abbrev S16x192x2 : Shape := ⟨3, ![16, 192, 2]⟩
abbrev S16x192x192 : Shape := ⟨3, ![16, 192, 192]⟩
abbrev S1x8x192 : Shape := ⟨3, ![1, 8, 192]⟩
abbrev S8x192 : Shape := ⟨2, ![8, 192]⟩
abbrev S8x192x25 : Shape := ⟨3, ![8, 192, 25]⟩
abbrev S8x192x1 : Shape := ⟨3, ![8, 192, 1]⟩
abbrev S1536x25 : Shape := ⟨2, ![1536, 25]⟩
abbrev S16x12x196 : Shape := ⟨3, ![16, 12, 196]⟩
abbrev S16x8x192 : Shape := ⟨3, ![16, 8, 192]⟩
abbrev S1x16x8x192 : Shape := ⟨4, ![1, 16, 8, 192]⟩

abbrev nBuf : Space → Nat
  | .hbm => 5
  | .vmem => 8
  | .smem => 0
  | _ => 0

abbrev bufTy : (tb : Table) → Fin (tcTables nBuf tb) → BufTy
  | .hbm, ⟨0, _⟩ => ⟨S8x96x192x192, .f32⟩
  | .hbm, ⟨1, _⟩ => ⟨S25x5x5, .f32⟩
  | .hbm, ⟨2, _⟩ => ⟨S8x192x192, .i32⟩
  | .hbm, ⟨3, _⟩ => ⟨S25x25, .f32⟩
  | .hbm, ⟨4, _⟩ => ⟨S8x96x192x192, .f32⟩
  | .local _ .vmem, ⟨0, _⟩ => ⟨S1x16x192x192, .f32⟩
  | .local _ .vmem, ⟨1, _⟩ => ⟨S1x16x192x192, .f32⟩
  | .local _ .vmem, ⟨2, _⟩ => ⟨S1x192x192, .i32⟩
  | .local _ .vmem, ⟨3, _⟩ => ⟨S1x192x192, .i32⟩
  | .local _ .vmem, ⟨4, _⟩ => ⟨S25x25, .f32⟩
  | .local _ .vmem, ⟨5, _⟩ => ⟨S1x16x192x192, .f32⟩
  | .local _ .vmem, ⟨6, _⟩ => ⟨S1x16x192x192, .f32⟩
  | .local _ .vmem, ⟨7, _⟩ => ⟨S16x196x196, .f32⟩
  | _, _ => ⟨S8x96x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

@[reducible] def k0_t1_loop : Scf.Loop 32 :=
  let c0_i32 : BitVec 32 := 0#32
  let c24_i32 : BitVec 32 := 24#32
  let v24 : BitVec 32 := Scalar.addi c0_i32 c24_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v25 : BitVec 32 := Scalar.muli arg7 c8_i32
  v25
def k0_off1 (k0_t1 : Fin k0_t1_loop.trips) : Fin 3 → Nat :=
  let c0_22 : Index := 0#32
  let c0_i32 : BitVec 32 := 0#32
  let c1_i32 : BitVec 32 := 1#32
  let arg7 : BitVec 32 := Scf.iv c0_i32 c1_i32 k0_t1
  let c8_i32 : BitVec 32 := 8#32
  let v25 : BitVec 32 := Scalar.muli arg7 c8_i32
  let v26 : BitVec 32 := v25
  let v27 : Index := Scalar.indexCast v26
  let c0_23 : Index := 0#32
  ![0, v27.toNat, 0]
def k0_off2 (k0_t1 : Fin k0_t1_loop.trips) : Fin 3 → Nat :=
  let c0_25 : Index := 0#32
  let c0_i32 : BitVec 32 := 0#32
  let c1_i32 : BitVec 32 := 1#32
  let arg7 : BitVec 32 := Scf.iv c0_i32 c1_i32 k0_t1
  let c8_i32 : BitVec 32 := 8#32
  let v25 : BitVec 32 := Scalar.muli arg7 c8_i32
  let v26 : BitVec 32 := v25
  let v40 : Index := Scalar.indexCast v26
  let c0_26 : Index := 0#32
  ![0, v40.toNat, 0]
def k0_off3 (k0_t1 : Fin k0_t1_loop.trips) : Fin 4 → Nat :=
  let c0_28 : Index := 0#32
  let c0_29 : Index := 0#32
  let c0_i32 : BitVec 32 := 0#32
  let c1_i32 : BitVec 32 := 1#32
  let arg7 : BitVec 32 := Scf.iv c0_i32 c1_i32 k0_t1
  let c8_i32 : BitVec 32 := 8#32
  let v25 : BitVec 32 := Scalar.muli arg7 c8_i32
  let v26 : BitVec 32 := v25
  let v218 : Index := Scalar.indexCast v26
  let c0_30 : Index := 0#32
  ![0, 0, v218.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x192x192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S25x25 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S25x5x5_S25x25 : S25x5x5.ShapeCasts S25x25
  inb_S16x196x196_S16x2x196_0_0_0 : ∀ a, (![0, 0, 0] : Fin 3 → Nat) a + S16x2x196.size a ≤ S16x196x196.size a
  h_S16x2x196 : 0 < S16x2x196.numel
  shapeCasts_S16x2x196_S16x2x196 : S16x2x196.ShapeCasts S16x2x196
  inb_S16x196x196_S16x2x196_0_194_0 : ∀ a, (![0, 194, 0] : Fin 3 → Nat) a + S16x2x196.size a ≤ S16x196x196.size a
  inb_S16x196x196_S16x192x2_0_2_0 : ∀ a, (![0, 2, 0] : Fin 3 → Nat) a + S16x192x2.size a ≤ S16x196x196.size a
  h_S16x192x2 : 0 < S16x192x2.numel
  shapeCasts_S16x192x2_S16x192x2 : S16x192x2.ShapeCasts S16x192x2
  inb_S16x196x196_S16x192x2_0_2_194 : ∀ a, (![0, 2, 194] : Fin 3 → Nat) a + S16x192x2.size a ≤ S16x196x196.size a
  inb_S1x16x192x192_S1x16x192x192_0_0_0_0 : ∀ a, (![0, 0, 0, 0] : Fin 4 → Nat) a + S1x16x192x192.size a ≤ S1x16x192x192.size a
  h_S1x16x192x192 : 0 < S1x16x192x192.numel
  shapeCasts_S1x16x192x192_S16x192x192 : S1x16x192x192.ShapeCasts S16x192x192
  inb_S16x196x196_S16x192x192_0_2_2 : ∀ a, (![0, 2, 2] : Fin 3 → Nat) a + S16x192x192.size a ≤ S16x196x196.size a
  h_S16x192x192 : 0 < S16x192x192.numel
  shapeCasts_S16x192x192_S16x192x192 : S16x192x192.ShapeCasts S16x192x192
  inb_S25x25_S25x25_0_0 : ∀ a, (![0, 0] : Fin 2 → Nat) a + S25x25.size a ≤ S25x25.size a
  h_S25x25 : 0 < S25x25.numel
  shapeCasts_S25x25_S25x25 : S25x25.ShapeCasts S25x25
  bitsLt_bf16_f32 : FTy.bits .bf16 < FTy.bits .f32
  h_S1x8x192 : 0 < S1x8x192.numel
  shapeCasts_S1x8x192_S8x192 : S1x8x192.ShapeCasts S8x192
  iota_S8x192x25_d2_w32 : S8x192x25.Iotas .tc 32 [2]
  shapeCasts_S8x192_S8x192x1 : S8x192.ShapeCasts S8x192x1
  broadcasts_S8x192x1_S8x192x25 : S8x192x1.Broadcasts S8x192x25
  natLt_1_32 : 1 < 32
  shapeCasts_S8x192x25_S1536x25 : S8x192x25.ShapeCasts S1536x25
  shapeCasts_S1536x25_S8x192x25 : S1536x25.ShapeCasts S8x192x25
  h_S16x12x196 : 0 < S16x12x196.numel
  slices_S8x192x25_o0_0_0_S8x192x1 : S8x192x25.Slices ![0, 0, 0] S8x192x1
  shapeCasts_S8x192x1_S8x192 : S8x192x1.ShapeCasts S8x192
  slices_S16x12x196_o0_0_0_S16x8x192 : S16x12x196.Slices ![0, 0, 0] S16x8x192
  shapeCasts_S8x192_S1x8x192 : S8x192.ShapeCasts S1x8x192
  broadcasts_S1x8x192_S16x8x192 : S1x8x192.Broadcasts S16x8x192
  slices_S8x192x25_o0_0_1_S8x192x1 : S8x192x25.Slices ![0, 0, 1] S8x192x1
  slices_S16x12x196_o0_0_1_S16x8x192 : S16x12x196.Slices ![0, 0, 1] S16x8x192
  slices_S8x192x25_o0_0_2_S8x192x1 : S8x192x25.Slices ![0, 0, 2] S8x192x1
  slices_S16x12x196_o0_0_2_S16x8x192 : S16x12x196.Slices ![0, 0, 2] S16x8x192
  slices_S8x192x25_o0_0_3_S8x192x1 : S8x192x25.Slices ![0, 0, 3] S8x192x1
  slices_S16x12x196_o0_0_3_S16x8x192 : S16x12x196.Slices ![0, 0, 3] S16x8x192
  slices_S8x192x25_o0_0_4_S8x192x1 : S8x192x25.Slices ![0, 0, 4] S8x192x1
  slices_S16x12x196_o0_0_4_S16x8x192 : S16x12x196.Slices ![0, 0, 4] S16x8x192
  slices_S8x192x25_o0_0_5_S8x192x1 : S8x192x25.Slices ![0, 0, 5] S8x192x1
  slices_S16x12x196_o0_1_0_S16x8x192 : S16x12x196.Slices ![0, 1, 0] S16x8x192
  slices_S8x192x25_o0_0_6_S8x192x1 : S8x192x25.Slices ![0, 0, 6] S8x192x1
  slices_S16x12x196_o0_1_1_S16x8x192 : S16x12x196.Slices ![0, 1, 1] S16x8x192
  slices_S8x192x25_o0_0_7_S8x192x1 : S8x192x25.Slices ![0, 0, 7] S8x192x1
  slices_S16x12x196_o0_1_2_S16x8x192 : S16x12x196.Slices ![0, 1, 2] S16x8x192
  slices_S8x192x25_o0_0_8_S8x192x1 : S8x192x25.Slices ![0, 0, 8] S8x192x1
  slices_S16x12x196_o0_1_3_S16x8x192 : S16x12x196.Slices ![0, 1, 3] S16x8x192
  slices_S8x192x25_o0_0_9_S8x192x1 : S8x192x25.Slices ![0, 0, 9] S8x192x1
  slices_S16x12x196_o0_1_4_S16x8x192 : S16x12x196.Slices ![0, 1, 4] S16x8x192
  slices_S8x192x25_o0_0_10_S8x192x1 : S8x192x25.Slices ![0, 0, 10] S8x192x1
  slices_S16x12x196_o0_2_0_S16x8x192 : S16x12x196.Slices ![0, 2, 0] S16x8x192
  slices_S8x192x25_o0_0_11_S8x192x1 : S8x192x25.Slices ![0, 0, 11] S8x192x1
  slices_S16x12x196_o0_2_1_S16x8x192 : S16x12x196.Slices ![0, 2, 1] S16x8x192
  slices_S8x192x25_o0_0_12_S8x192x1 : S8x192x25.Slices ![0, 0, 12] S8x192x1
  slices_S16x12x196_o0_2_2_S16x8x192 : S16x12x196.Slices ![0, 2, 2] S16x8x192
  slices_S8x192x25_o0_0_13_S8x192x1 : S8x192x25.Slices ![0, 0, 13] S8x192x1
  slices_S16x12x196_o0_2_3_S16x8x192 : S16x12x196.Slices ![0, 2, 3] S16x8x192
  slices_S8x192x25_o0_0_14_S8x192x1 : S8x192x25.Slices ![0, 0, 14] S8x192x1
  slices_S16x12x196_o0_2_4_S16x8x192 : S16x12x196.Slices ![0, 2, 4] S16x8x192
  slices_S8x192x25_o0_0_15_S8x192x1 : S8x192x25.Slices ![0, 0, 15] S8x192x1
  slices_S16x12x196_o0_3_0_S16x8x192 : S16x12x196.Slices ![0, 3, 0] S16x8x192
  slices_S8x192x25_o0_0_16_S8x192x1 : S8x192x25.Slices ![0, 0, 16] S8x192x1
  slices_S16x12x196_o0_3_1_S16x8x192 : S16x12x196.Slices ![0, 3, 1] S16x8x192
  slices_S8x192x25_o0_0_17_S8x192x1 : S8x192x25.Slices ![0, 0, 17] S8x192x1
  slices_S16x12x196_o0_3_2_S16x8x192 : S16x12x196.Slices ![0, 3, 2] S16x8x192
  slices_S8x192x25_o0_0_18_S8x192x1 : S8x192x25.Slices ![0, 0, 18] S8x192x1
  slices_S16x12x196_o0_3_3_S16x8x192 : S16x12x196.Slices ![0, 3, 3] S16x8x192
  slices_S8x192x25_o0_0_19_S8x192x1 : S8x192x25.Slices ![0, 0, 19] S8x192x1
  slices_S16x12x196_o0_3_4_S16x8x192 : S16x12x196.Slices ![0, 3, 4] S16x8x192
  slices_S8x192x25_o0_0_20_S8x192x1 : S8x192x25.Slices ![0, 0, 20] S8x192x1
  slices_S16x12x196_o0_4_0_S16x8x192 : S16x12x196.Slices ![0, 4, 0] S16x8x192
  slices_S8x192x25_o0_0_21_S8x192x1 : S8x192x25.Slices ![0, 0, 21] S8x192x1
  slices_S16x12x196_o0_4_1_S16x8x192 : S16x12x196.Slices ![0, 4, 1] S16x8x192
  slices_S8x192x25_o0_0_22_S8x192x1 : S8x192x25.Slices ![0, 0, 22] S8x192x1
  slices_S16x12x196_o0_4_2_S16x8x192 : S16x12x196.Slices ![0, 4, 2] S16x8x192
  slices_S8x192x25_o0_0_23_S8x192x1 : S8x192x25.Slices ![0, 0, 23] S8x192x1
  slices_S16x12x196_o0_4_3_S16x8x192 : S16x12x196.Slices ![0, 4, 3] S16x8x192
  slices_S8x192x25_o0_0_24_S8x192x1 : S8x192x25.Slices ![0, 0, 24] S8x192x1
  slices_S16x12x196_o0_4_4_S16x8x192 : S16x12x196.Slices ![0, 4, 4] S16x8x192
  h_S1x16x8x192 : 0 < S1x16x8x192.numel
  shapeCasts_S1x16x8x192_S16x8x192 : S1x16x8x192.ShapeCasts S16x8x192
  shapeCasts_S16x8x192_S1x16x8x192 : S16x8x192.ShapeCasts S1x16x8x192
  dot_S1536x25_S25x25_S1536x25_1_0_0_1_n_n_wf : DotDims.WF S1536x25 S25x25 S1536x25 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x192.size a ≤ S1x192x192.size a
  k0_off2_inb : ∀ k0_t1 : Fin k0_t1_loop.trips, ∀ a, (k0_off2 k0_t1) a + S16x12x196.size a ≤ S16x196x196.size a
  k0_off3_inb : ∀ k0_t1 : Fin k0_t1_loop.trips, ∀ a, (k0_off3 k0_t1) a + S1x16x8x192.size a ≤ S1x16x192x192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x192x192.size a ≤ S8x96x192x192.size a
  hwx0_0 : ∀ i : grid0.Coords, EltTy.bits .f32 = 32 ∨ (Rect.block (s := S8x96x192x192) S1x16x192x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x192x192.size a ≤ S8x192x192.size a
  hwx0_1 : ∀ i : grid0.Coords, EltTy.bits .i32 = 32 ∨ (Rect.block (s := S8x192x192) S1x192x192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S25x25.size a ≤ S25x25.size a
  hwx0_2 : ∀ i : grid0.Coords, EltTy.bits .f32 = 32 ∨ (Rect.block (s := S25x25) S25x25.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x192x192.size a ≤ S8x96x192x192.size a
  hwx0_3 : ∀ i : grid0.Coords, EltTy.bits .f32 = 32 ∨ (Rect.block (s := S8x96x192x192) S1x16x192x192.size (cc0_transform_3 i) (hinb0_3 i)).WholeWords (EltTy.packing .f32)

variable [Facts₀]

def dot_S1536x25_S25x25_S1536x25_1_0_0_1_n_n : DotDims S1536x25 S25x25 S1536x25 where
  lhsContracting := [1]
  rhsContracting := [0]
  lhsNonContracting := [0]
  rhsNonContracting := [1]
  lhsBatch := []
  rhsBatch := []
  wf := dot_S1536x25_S25x25_S1536x25_1_0_0_1_n_n_wf

abbrev win0_0 : Pipeline.Window sig grid0 :=
  Pipeline.Window.ofSpec (Memref.whole main_arg0) S1x16x192x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x192x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S25x25.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16x192x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x96x192x192 : Shape := ⟨4, ![8, 96, 192, 192]⟩
abbrev S25x5x5 : Shape := ⟨3, ![25, 5, 5]⟩
abbrev S8x192x192 : Shape := ⟨3, ![8, 192, 192]⟩
abbrev S_ : Shape := ⟨0, ![]⟩
abbrev S8x96x196x196 : Shape := ⟨4, ![8, 96, 196, 196]⟩
abbrev S8x192x192x1 : Shape := ⟨4, ![8, 192, 192, 1]⟩
abbrev S8x192x192x5x5 : Shape := ⟨5, ![8, 192, 192, 5, 5]⟩
abbrev S8x192x192x1x1 : Shape := ⟨5, ![8, 192, 192, 1, 1]⟩
abbrev S8x1x192x192 : Shape := ⟨4, ![8, 1, 192, 192]⟩

abbrev nBuf : Space → Nat
  | .hbm => 192
  | .vmem => 0
  | .smem => 0
  | _ => 0

abbrev hbmTy0_0 (i : Nat) : BufTy := match i % 128 with
  | 0 => ⟨S8x96x192x192, .f32⟩
  | 1 => ⟨S25x5x5, .f32⟩
  | 2 => ⟨S8x192x192, .i32⟩
  | 3 => ⟨S_, .i32⟩
  | 4 => ⟨S_, .f32⟩
  | 5 => ⟨S8x96x196x196, .f32⟩
  | 6 => ⟨S_, .i32⟩
  | 7 => ⟨S8x192x192, .i32⟩
  | 8 => ⟨S8x192x192, .i1⟩
  | 9 => ⟨S_, .i32⟩
  | 10 => ⟨S8x192x192, .i32⟩
  | 11 => ⟨S8x192x192, .i32⟩
  | 12 => ⟨S8x192x192, .i32⟩
  | 13 => ⟨S8x192x192x1, .i32⟩
  | 14 => ⟨S8x192x192x5x5, .f32⟩
  | 15 => ⟨S_, .f32⟩
  | 16 => ⟨S8x96x192x192, .f32⟩
  | 17 => ⟨S8x96x192x192, .f32⟩
  | 18 => ⟨S8x192x192x1x1, .f32⟩
  | 19 => ⟨S8x192x192, .f32⟩
  | 20 => ⟨S8x1x192x192, .f32⟩
  | 21 => ⟨S8x96x192x192, .f32⟩
  | 22 => ⟨S8x96x192x192, .f32⟩
  | 23 => ⟨S8x96x192x192, .f32⟩
  | 24 => ⟨S8x96x192x192, .f32⟩
  | 25 => ⟨S8x192x192x1x1, .f32⟩
  | 26 => ⟨S8x192x192, .f32⟩
  | 27 => ⟨S8x1x192x192, .f32⟩
  | 28 => ⟨S8x96x192x192, .f32⟩
  | 29 => ⟨S8x96x192x192, .f32⟩
  | 30 => ⟨S8x96x192x192, .f32⟩
  | 31 => ⟨S8x96x192x192, .f32⟩
  | 32 => ⟨S8x192x192x1x1, .f32⟩
  | 33 => ⟨S8x192x192, .f32⟩
  | 34 => ⟨S8x1x192x192, .f32⟩
  | 35 => ⟨S8x96x192x192, .f32⟩
  | 36 => ⟨S8x96x192x192, .f32⟩
  | 37 => ⟨S8x96x192x192, .f32⟩
  | 38 => ⟨S8x96x192x192, .f32⟩
  | 39 => ⟨S8x192x192x1x1, .f32⟩
  | 40 => ⟨S8x192x192, .f32⟩
  | 41 => ⟨S8x1x192x192, .f32⟩
  | 42 => ⟨S8x96x192x192, .f32⟩
  | 43 => ⟨S8x96x192x192, .f32⟩
  | 44 => ⟨S8x96x192x192, .f32⟩
  | 45 => ⟨S8x96x192x192, .f32⟩
  | 46 => ⟨S8x192x192x1x1, .f32⟩
  | 47 => ⟨S8x192x192, .f32⟩
  | 48 => ⟨S8x1x192x192, .f32⟩
  | 49 => ⟨S8x96x192x192, .f32⟩
  | 50 => ⟨S8x96x192x192, .f32⟩
  | 51 => ⟨S8x96x192x192, .f32⟩
  | 52 => ⟨S8x96x192x192, .f32⟩
  | 53 => ⟨S8x192x192x1x1, .f32⟩
  | 54 => ⟨S8x192x192, .f32⟩
  | 55 => ⟨S8x1x192x192, .f32⟩
  | 56 => ⟨S8x96x192x192, .f32⟩
  | 57 => ⟨S8x96x192x192, .f32⟩
  | 58 => ⟨S8x96x192x192, .f32⟩
  | 59 => ⟨S8x96x192x192, .f32⟩
  | 60 => ⟨S8x192x192x1x1, .f32⟩
  | 61 => ⟨S8x192x192, .f32⟩
  | 62 => ⟨S8x1x192x192, .f32⟩
  | 63 => ⟨S8x96x192x192, .f32⟩
  | 64 => ⟨S8x96x192x192, .f32⟩
  | 65 => ⟨S8x96x192x192, .f32⟩
  | 66 => ⟨S8x96x192x192, .f32⟩
  | 67 => ⟨S8x192x192x1x1, .f32⟩
  | 68 => ⟨S8x192x192, .f32⟩
  | 69 => ⟨S8x1x192x192, .f32⟩
  | 70 => ⟨S8x96x192x192, .f32⟩
  | 71 => ⟨S8x96x192x192, .f32⟩
  | 72 => ⟨S8x96x192x192, .f32⟩
  | 73 => ⟨S8x96x192x192, .f32⟩
  | 74 => ⟨S8x192x192x1x1, .f32⟩
  | 75 => ⟨S8x192x192, .f32⟩
  | 76 => ⟨S8x1x192x192, .f32⟩
  | 77 => ⟨S8x96x192x192, .f32⟩
  | 78 => ⟨S8x96x192x192, .f32⟩
  | 79 => ⟨S8x96x192x192, .f32⟩
  | 80 => ⟨S8x96x192x192, .f32⟩
  | 81 => ⟨S8x192x192x1x1, .f32⟩
  | 82 => ⟨S8x192x192, .f32⟩
  | 83 => ⟨S8x1x192x192, .f32⟩
  | 84 => ⟨S8x96x192x192, .f32⟩
  | 85 => ⟨S8x96x192x192, .f32⟩
  | 86 => ⟨S8x96x192x192, .f32⟩
  | 87 => ⟨S8x96x192x192, .f32⟩
  | 88 => ⟨S8x192x192x1x1, .f32⟩
  | 89 => ⟨S8x192x192, .f32⟩
  | 90 => ⟨S8x1x192x192, .f32⟩
  | 91 => ⟨S8x96x192x192, .f32⟩
  | 92 => ⟨S8x96x192x192, .f32⟩
  | 93 => ⟨S8x96x192x192, .f32⟩
  | 94 => ⟨S8x96x192x192, .f32⟩
  | 95 => ⟨S8x192x192x1x1, .f32⟩
  | 96 => ⟨S8x192x192, .f32⟩
  | 97 => ⟨S8x1x192x192, .f32⟩
  | 98 => ⟨S8x96x192x192, .f32⟩
  | 99 => ⟨S8x96x192x192, .f32⟩
  | 100 => ⟨S8x96x192x192, .f32⟩
  | 101 => ⟨S8x96x192x192, .f32⟩
  | 102 => ⟨S8x192x192x1x1, .f32⟩
  | 103 => ⟨S8x192x192, .f32⟩
  | 104 => ⟨S8x1x192x192, .f32⟩
  | 105 => ⟨S8x96x192x192, .f32⟩
  | 106 => ⟨S8x96x192x192, .f32⟩
  | 107 => ⟨S8x96x192x192, .f32⟩
  | 108 => ⟨S8x96x192x192, .f32⟩
  | 109 => ⟨S8x192x192x1x1, .f32⟩
  | 110 => ⟨S8x192x192, .f32⟩
  | 111 => ⟨S8x1x192x192, .f32⟩
  | 112 => ⟨S8x96x192x192, .f32⟩
  | 113 => ⟨S8x96x192x192, .f32⟩
  | 114 => ⟨S8x96x192x192, .f32⟩
  | 115 => ⟨S8x96x192x192, .f32⟩
  | 116 => ⟨S8x192x192x1x1, .f32⟩
  | 117 => ⟨S8x192x192, .f32⟩
  | 118 => ⟨S8x1x192x192, .f32⟩
  | 119 => ⟨S8x96x192x192, .f32⟩
  | 120 => ⟨S8x96x192x192, .f32⟩
  | 121 => ⟨S8x96x192x192, .f32⟩
  | 122 => ⟨S8x96x192x192, .f32⟩
  | 123 => ⟨S8x192x192x1x1, .f32⟩
  | 124 => ⟨S8x192x192, .f32⟩
  | 125 => ⟨S8x1x192x192, .f32⟩
  | 126 => ⟨S8x96x192x192, .f32⟩
  | 127 => ⟨S8x96x192x192, .f32⟩
  | _ => ⟨S8x96x192x192, .f32⟩

abbrev hbmTy0_1 (i : Nat) : BufTy := match i % 128 with
  | 0 => ⟨S8x96x192x192, .f32⟩
  | 1 => ⟨S8x96x192x192, .f32⟩
  | 2 => ⟨S8x192x192x1x1, .f32⟩
  | 3 => ⟨S8x192x192, .f32⟩
  | 4 => ⟨S8x1x192x192, .f32⟩
  | 5 => ⟨S8x96x192x192, .f32⟩
  | 6 => ⟨S8x96x192x192, .f32⟩
  | 7 => ⟨S8x96x192x192, .f32⟩
  | 8 => ⟨S8x96x192x192, .f32⟩
  | 9 => ⟨S8x192x192x1x1, .f32⟩
  | 10 => ⟨S8x192x192, .f32⟩
  | 11 => ⟨S8x1x192x192, .f32⟩
  | 12 => ⟨S8x96x192x192, .f32⟩
  | 13 => ⟨S8x96x192x192, .f32⟩
  | 14 => ⟨S8x96x192x192, .f32⟩
  | 15 => ⟨S8x96x192x192, .f32⟩
  | 16 => ⟨S8x192x192x1x1, .f32⟩
  | 17 => ⟨S8x192x192, .f32⟩
  | 18 => ⟨S8x1x192x192, .f32⟩
  | 19 => ⟨S8x96x192x192, .f32⟩
  | 20 => ⟨S8x96x192x192, .f32⟩
  | 21 => ⟨S8x96x192x192, .f32⟩
  | 22 => ⟨S8x96x192x192, .f32⟩
  | 23 => ⟨S8x192x192x1x1, .f32⟩
  | 24 => ⟨S8x192x192, .f32⟩
  | 25 => ⟨S8x1x192x192, .f32⟩
  | 26 => ⟨S8x96x192x192, .f32⟩
  | 27 => ⟨S8x96x192x192, .f32⟩
  | 28 => ⟨S8x96x192x192, .f32⟩
  | 29 => ⟨S8x96x192x192, .f32⟩
  | 30 => ⟨S8x192x192x1x1, .f32⟩
  | 31 => ⟨S8x192x192, .f32⟩
  | 32 => ⟨S8x1x192x192, .f32⟩
  | 33 => ⟨S8x96x192x192, .f32⟩
  | 34 => ⟨S8x96x192x192, .f32⟩
  | 35 => ⟨S8x96x192x192, .f32⟩
  | 36 => ⟨S8x96x192x192, .f32⟩
  | 37 => ⟨S8x192x192x1x1, .f32⟩
  | 38 => ⟨S8x192x192, .f32⟩
  | 39 => ⟨S8x1x192x192, .f32⟩
  | 40 => ⟨S8x96x192x192, .f32⟩
  | 41 => ⟨S8x96x192x192, .f32⟩
  | 42 => ⟨S8x96x192x192, .f32⟩
  | 43 => ⟨S8x96x192x192, .f32⟩
  | 44 => ⟨S8x192x192x1x1, .f32⟩
  | 45 => ⟨S8x192x192, .f32⟩
  | 46 => ⟨S8x1x192x192, .f32⟩
  | 47 => ⟨S8x96x192x192, .f32⟩
  | 48 => ⟨S8x96x192x192, .f32⟩
  | 49 => ⟨S8x96x192x192, .f32⟩
  | 50 => ⟨S8x96x192x192, .f32⟩
  | 51 => ⟨S8x192x192x1x1, .f32⟩
  | 52 => ⟨S8x192x192, .f32⟩
  | 53 => ⟨S8x1x192x192, .f32⟩
  | 54 => ⟨S8x96x192x192, .f32⟩
  | 55 => ⟨S8x96x192x192, .f32⟩
  | 56 => ⟨S8x96x192x192, .f32⟩
  | 57 => ⟨S8x96x192x192, .f32⟩
  | 58 => ⟨S8x192x192x1x1, .f32⟩
  | 59 => ⟨S8x192x192, .f32⟩
  | 60 => ⟨S8x1x192x192, .f32⟩
  | 61 => ⟨S8x96x192x192, .f32⟩
  | 62 => ⟨S8x96x192x192, .f32⟩
  | 63 => ⟨S8x96x192x192, .f32⟩
  | _ => ⟨S8x96x192x192, .f32⟩

abbrev hbmTy (i : Nat) : BufTy := match i / 128 with
  | 0 => hbmTy0_0 i
  | 1 => hbmTy0_1 i
  | _ => ⟨S8x96x192x192, .f32⟩

abbrev bufTy : (tb : Table) → Fin (tcTables nBuf tb) → BufTy
  | .hbm, ⟨i, _⟩ => hbmTy i
  | _, _ => ⟨S8x96x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩

abbrev nD : Nat := 1
abbrev τ : Topo := Topo.v7x

variable {F : FTy → Type} [FloatOps F]

class Facts₀ : Prop where
  pads_S8x96x192x192_S8x96x196x196_000_000_220_220 : S8x96x192x192.Pads (![0, 0, 2, 2] : Fin 4 → Nat) ![0, 0, 2, 2] ![0, 0, 0, 0] S8x96x196x196
  h_S_ : 0 < S_.numel
  bcast_S_S8x192x192 : S_.BroadcastsInDim S8x192x192 (![] : Fin 0 → Fin S8x192x192.rank)
  bcast_S8x192x192_S8x192x192x1_0_1_2 : S8x192x192.BroadcastsInDim S8x192x192x1 (![0, 1, 2] : Fin 3 → Fin S8x192x192x1.rank)
  bcast_S_S8x96x192x192 : S_.BroadcastsInDim S8x96x192x192 (![] : Fin 0 → Fin S8x96x192x192.rank)
  slices_S8x96x196x196_S8x96x192x192_0_0_0_0 : S8x96x196x196.Slices ![0, 0, 0, 0] S8x96x192x192
  slices_S8x192x192x5x5_S8x192x192x1x1_0_0_0_0_0 : S8x192x192x5x5.Slices ![0, 0, 0, 0, 0] S8x192x192x1x1
  shapeCasts_S8x192x192x1x1_S8x192x192 : S8x192x192x1x1.ShapeCasts S8x192x192
  bcast_S8x192x192_S8x1x192x192_0_2_3 : S8x192x192.BroadcastsInDim S8x1x192x192 (![0, 2, 3] : Fin 3 → Fin S8x1x192x192.rank)
  bcast_S8x1x192x192_S8x96x192x192_0_1_2_3 : S8x1x192x192.BroadcastsInDim S8x96x192x192 (![0, 1, 2, 3] : Fin 4 → Fin S8x96x192x192.rank)
  slices_S8x96x196x196_S8x96x192x192_0_0_0_1 : S8x96x196x196.Slices ![0, 0, 0, 1] S8x96x192x192
  slices_S8x192x192x5x5_S8x192x192x1x1_0_0_0_0_1 : S8x192x192x5x5.Slices ![0, 0, 0, 0, 1] S8x192x192x1x1
  slices_S8x96x196x196_S8x96x192x192_0_0_0_2 : S8x96x196x196.Slices ![0, 0, 0, 2] S8x96x192x192
  slices_S8x192x192x5x5_S8x192x192x1x1_0_0_0_0_2 : S8x192x192x5x5.Slices ![0, 0, 0, 0, 2] S8x192x192x1x1
  slices_S8x96x196x196_S8x96x192x192_0_0_0_3 : S8x96x196x196.Slices ![0, 0, 0, 3] S8x96x192x192
  slices_S8x192x192x5x5_S8x192x192x1x1_0_0_0_0_3 : S8x192x192x5x5.Slices ![0, 0, 0, 0, 3] S8x192x192x1x1
  slices_S8x96x196x196_S8x96x192x192_0_0_0_4 : S8x96x196x196.Slices ![0, 0, 0, 4] S8x96x192x192
  slices_S8x192x192x5x5_S8x192x192x1x1_0_0_0_0_4 : S8x192x192x5x5.Slices ![0, 0, 0, 0, 4] S8x192x192x1x1
  slices_S8x96x196x196_S8x96x192x192_0_0_1_0 : S8x96x196x196.Slices ![0, 0, 1, 0] S8x96x192x192
  slices_S8x192x192x5x5_S8x192x192x1x1_0_0_0_1_0 : S8x192x192x5x5.Slices ![0, 0, 0, 1, 0] S8x192x192x1x1
  slices_S8x96x196x196_S8x96x192x192_0_0_1_1 : S8x96x196x196.Slices ![0, 0, 1, 1] S8x96x192x192
  slices_S8x192x192x5x5_S8x192x192x1x1_0_0_0_1_1 : S8x192x192x5x5.Slices ![0, 0, 0, 1, 1] S8x192x192x1x1
  slices_S8x96x196x196_S8x96x192x192_0_0_1_2 : S8x96x196x196.Slices ![0, 0, 1, 2] S8x96x192x192
  slices_S8x192x192x5x5_S8x192x192x1x1_0_0_0_1_2 : S8x192x192x5x5.Slices ![0, 0, 0, 1, 2] S8x192x192x1x1
  slices_S8x96x196x196_S8x96x192x192_0_0_1_3 : S8x96x196x196.Slices ![0, 0, 1, 3] S8x96x192x192
  slices_S8x192x192x5x5_S8x192x192x1x1_0_0_0_1_3 : S8x192x192x5x5.Slices ![0, 0, 0, 1, 3] S8x192x192x1x1
  slices_S8x96x196x196_S8x96x192x192_0_0_1_4 : S8x96x196x196.Slices ![0, 0, 1, 4] S8x96x192x192
  slices_S8x192x192x5x5_S8x192x192x1x1_0_0_0_1_4 : S8x192x192x5x5.Slices ![0, 0, 0, 1, 4] S8x192x192x1x1
  slices_S8x96x196x196_S8x96x192x192_0_0_2_0 : S8x96x196x196.Slices ![0, 0, 2, 0] S8x96x192x192
  slices_S8x192x192x5x5_S8x192x192x1x1_0_0_0_2_0 : S8x192x192x5x5.Slices ![0, 0, 0, 2, 0] S8x192x192x1x1
  slices_S8x96x196x196_S8x96x192x192_0_0_2_1 : S8x96x196x196.Slices ![0, 0, 2, 1] S8x96x192x192
  slices_S8x192x192x5x5_S8x192x192x1x1_0_0_0_2_1 : S8x192x192x5x5.Slices ![0, 0, 0, 2, 1] S8x192x192x1x1
  slices_S8x96x196x196_S8x96x192x192_0_0_2_2 : S8x96x196x196.Slices ![0, 0, 2, 2] S8x96x192x192
  slices_S8x192x192x5x5_S8x192x192x1x1_0_0_0_2_2 : S8x192x192x5x5.Slices ![0, 0, 0, 2, 2] S8x192x192x1x1
  slices_S8x96x196x196_S8x96x192x192_0_0_2_3 : S8x96x196x196.Slices ![0, 0, 2, 3] S8x96x192x192
  slices_S8x192x192x5x5_S8x192x192x1x1_0_0_0_2_3 : S8x192x192x5x5.Slices ![0, 0, 0, 2, 3] S8x192x192x1x1
  slices_S8x96x196x196_S8x96x192x192_0_0_2_4 : S8x96x196x196.Slices ![0, 0, 2, 4] S8x96x192x192
  slices_S8x192x192x5x5_S8x192x192x1x1_0_0_0_2_4 : S8x192x192x5x5.Slices ![0, 0, 0, 2, 4] S8x192x192x1x1
  slices_S8x96x196x196_S8x96x192x192_0_0_3_0 : S8x96x196x196.Slices ![0, 0, 3, 0] S8x96x192x192
  slices_S8x192x192x5x5_S8x192x192x1x1_0_0_0_3_0 : S8x192x192x5x5.Slices ![0, 0, 0, 3, 0] S8x192x192x1x1
  slices_S8x96x196x196_S8x96x192x192_0_0_3_1 : S8x96x196x196.Slices ![0, 0, 3, 1] S8x96x192x192
  slices_S8x192x192x5x5_S8x192x192x1x1_0_0_0_3_1 : S8x192x192x5x5.Slices ![0, 0, 0, 3, 1] S8x192x192x1x1
  slices_S8x96x196x196_S8x96x192x192_0_0_3_2 : S8x96x196x196.Slices ![0, 0, 3, 2] S8x96x192x192
  slices_S8x192x192x5x5_S8x192x192x1x1_0_0_0_3_2 : S8x192x192x5x5.Slices ![0, 0, 0, 3, 2] S8x192x192x1x1
  slices_S8x96x196x196_S8x96x192x192_0_0_3_3 : S8x96x196x196.Slices ![0, 0, 3, 3] S8x96x192x192
  slices_S8x192x192x5x5_S8x192x192x1x1_0_0_0_3_3 : S8x192x192x5x5.Slices ![0, 0, 0, 3, 3] S8x192x192x1x1
  slices_S8x96x196x196_S8x96x192x192_0_0_3_4 : S8x96x196x196.Slices ![0, 0, 3, 4] S8x96x192x192
  slices_S8x192x192x5x5_S8x192x192x1x1_0_0_0_3_4 : S8x192x192x5x5.Slices ![0, 0, 0, 3, 4] S8x192x192x1x1
  slices_S8x96x196x196_S8x96x192x192_0_0_4_0 : S8x96x196x196.Slices ![0, 0, 4, 0] S8x96x192x192
  slices_S8x192x192x5x5_S8x192x192x1x1_0_0_0_4_0 : S8x192x192x5x5.Slices ![0, 0, 0, 4, 0] S8x192x192x1x1
  slices_S8x96x196x196_S8x96x192x192_0_0_4_1 : S8x96x196x196.Slices ![0, 0, 4, 1] S8x96x192x192
  slices_S8x192x192x5x5_S8x192x192x1x1_0_0_0_4_1 : S8x192x192x5x5.Slices ![0, 0, 0, 4, 1] S8x192x192x1x1
  slices_S8x96x196x196_S8x96x192x192_0_0_4_2 : S8x96x196x196.Slices ![0, 0, 4, 2] S8x96x192x192
  slices_S8x192x192x5x5_S8x192x192x1x1_0_0_0_4_2 : S8x192x192x5x5.Slices ![0, 0, 0, 4, 2] S8x192x192x1x1
  slices_S8x96x196x196_S8x96x192x192_0_0_4_3 : S8x96x196x196.Slices ![0, 0, 4, 3] S8x96x192x192
  slices_S8x192x192x5x5_S8x192x192x1x1_0_0_0_4_3 : S8x192x192x5x5.Slices ![0, 0, 0, 4, 3] S8x192x192x1x1
  slices_S8x96x196x196_S8x96x192x192_0_0_4_4 : S8x96x196x196.Slices ![0, 0, 4, 4] S8x96x192x192
  slices_S8x192x192x5x5_S8x192x192x1x1_0_0_0_4_4 : S8x192x192x5x5.Slices ![0, 0, 0, 4, 4] S8x192x192x1x1
  gather_S25x5x5_S8x192x192x1_S8x192x192x5x5_34_0_n_n_0_3_155_wf : GatherDims.WF S25x5x5 S8x192x192x1 S8x192x192x5x5 [3, 4] [0] [] [0] [] 3 ![1, 5, 5]

variable [Facts₀]

def gather_S25x5x5_S8x192x192x1_S8x192x192x5x5_34_0_n_n_0_3_155 : GatherDims S25x5x5 S8x192x192x1 S8x192x192x5x5 where
  offsetDims := [3, 4]
  collapsedSliceDims := [0]
  operandBatchingDims := []
  startIndicesBatchingDims := []
  startIndexMap := [0]
  indexVectorDim := 3
  sliceSizes := ![1, 5, 5]
  wf := gather_S25x5x5_S8x192x192x1_S8x192x192x5x5_34_0_n_n_0_3_155_wf

class Facts : Prop extends Facts₀ where

variable [Facts]
-- ==== Proof.RefReadEq.lean ====
/-
  The term by which the run of the reference names its one result, read at the arguments' contents at launch, is the
  value of the program's last operation, `val_main_v183`, of those contents: the two are the same composition of
  the operations' functions, so the equation holds by unfolding the name.
-/
import proofs.«427401_j73057393705079_3_alg».proof.Proof.RefRun
import proofs.«427401_j73057393705079_3_alg».proof.Proof.RefRead

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The term the run names `res_main_v183` is the last stage. -/
theorem val_main_v183_eq (m : (ℓ : Loc nD τ sig) → Buf (Elt F) ℓ) (c : Dev nD) :
    Cert.ReferenceIdeal.ValueP.res_main_v183 m c = val_main_v183 (F := F) (m ((c.tc : Thread nD τ).loc main_arg0)) (m ((c.tc : Thread nD τ).loc main_arg1)) (m ((c.tc : Thread nD τ).loc main_arg2)) := by
  unfold Cert.ReferenceIdeal.ValueP.res_main_v183; rfl

end Cert.ReferenceIdeal.ReadP

end
-- ==== Proof.KernelTrip.lean ====
/-
  One trip of the kernel's row loop stores eight output rows of sixteen channels. What it stores is a function of three
  values the trip reads: the bank (25 filters, flattened to 25 columns, in the narrow format), the eight rows of filter
  numbers of the trip, and the twelve rows of the zero-padded channel block that the eight output rows depend on.
  The printed kernel computes that function in several named stretches; here they are composed into one term.
-/
import proofs.«427401_j73057393705079_3_alg».proof.Proof.Gen.KernelIdeal.Skeleton

noncomputable section

namespace Cert.KernelIdeal.Trip

open Cert.KernelIdeal Cert.KernelIdeal.Gen Idealize.ShloMosaic

variable {F : FTy → Type} [FloatOps F]

/-- The filters the eight rows of pixels select, one row of 25 taps per pixel: the one-hot rows times the bank. -/
abbrev picked (v23 : FVec F S25x25 .bf16) (v28 : Vec F S1x8x192 .i32) : FVec F S8x192x25 .f32 := k0_pay2 v23 v28

/-- What one trip stores: the 25 taps accumulated over the window, for sixteen channels and eight rows. -/
def tripPay (v23 : FVec F S25x25 .bf16) (v28 : Vec F S1x8x192 .i32) (v41 : Vec F S16x12x196 .f32) : FVec F S1x16x8x192 .f32 :=
  k0_pay1 (picked v23 v28) v41
    (k0_pay8 (picked v23 v28) v41
      (k0_pay5 (picked v23 v28) v41 (k0_pay3 v23 v28 v41) (k0_pay4 v23 v28 v41))
      (k0_pay6 (picked v23 v28)) (k0_pay7 v41))

end Cert.KernelIdeal.Trip

end
-- ==== Proof.KernelBlock.lean ====
/-
  What one grid point of the kernel leaves in its output block. The body first fills a scratch plane per channel with
  the channel block surrounded by two zero rows and columns (five stores: four borders and the middle), then runs 24
  trips; trip k reads rows 8k … 8k+7 of the filter numbers and rows 8k … 8k+11 of the padded planes and stores rows
  8k … 8k+7 of the output block. The 24 stores tile the block, each is a block of one function of the point's input
  blocks, so the block ends holding that function.
-/
import proofs.«427401_j73057393705079_3_alg».proof.Proof.Gen.KernelIdeal.Frame
import proofs.«427401_j73057393705079_3_alg».proof.Proof.KernelTrip
import Idealize.ShloMosaic.Lib.Pipeline.Value
import Idealize.ShloMosaic.Lib.ValueIdx
import Idealize.ShloMosaic.Lib.ValueLayout

set_option maxRecDepth 16384

noncomputable section

namespace Cert.KernelIdeal.Block

open Cert.KernelIdeal Cert.KernelIdeal.Gen Cert.KernelIdeal.Trip
open Idealize.ShloMosaic Idealize.ShloMosaic.TcCoe Idealize.ShloMosaic.Tactic Idealize.ShloMosaic.ValueIdx
open Idealize.SL Idealize.SL.Sem

variable {F : FTy → Type} [FloatOps F]

/-- The five stores that fill the scratch planes, last first: the channel block in the middle, then the right, left,
    bottom and top borders of zeros. -/
def fillMid (X0 : Vec F S1x16x192x192 .f32) : View.Piece (Elt F) S16x196x196 .f32 :=
  ⟨Rect.unit (s := S16x196x196) ![0, 2, 2] S16x192x192.size inb_S16x196x196_S16x192x192_0_2_2, k0_pay13 X0⟩
def fillRight : View.Piece (Elt F) S16x196x196 .f32 :=
  ⟨Rect.unit (s := S16x196x196) ![0, 2, 194] S16x192x2.size inb_S16x196x196_S16x192x2_0_2_194, k0_pay12⟩
def fillLeft : View.Piece (Elt F) S16x196x196 .f32 :=
  ⟨Rect.unit (s := S16x196x196) ![0, 2, 0] S16x192x2.size inb_S16x196x196_S16x192x2_0_2_0, k0_pay11⟩
def fillBottom : View.Piece (Elt F) S16x196x196 .f32 :=
  ⟨Rect.unit (s := S16x196x196) ![0, 194, 0] S16x2x196.size inb_S16x196x196_S16x2x196_0_194_0, k0_pay10⟩
def fillTop : View.Piece (Elt F) S16x196x196 .f32 :=
  ⟨Rect.unit (s := S16x196x196) ![0, 0, 0] S16x2x196.size inb_S16x196x196_S16x2x196_0_0_0, k0_pay9⟩

def padStores (X0 : Vec F S1x16x192x192 .f32) : List (View.Piece (Elt F) S16x196x196 .f32) :=
  [fillMid X0, fillRight, fillLeft, fillBottom, fillTop]

/-- Trip k's one store: rows 8k … 8k+7 of the output block take the trip's value of the rows of filter numbers and
    the rows of the padded planes that the trip reads. -/
theorem trip_store (𝒱 : Variants) (c : Dev nD) (bd : Option 𝒱.V) (i : grid0.Coords) (arg2 : Memref sig .tc .vmem S1x16x192x192 .f32) (harg2 : arg2.IsWhole) (arg3 : Memref sig .tc .vmem S1x192x192 .i32) (harg3 : arg3.IsWhole) (arg4 : Memref sig .tc .vmem S25x25 .f32) (harg4 : arg4.IsWhole) (arg5 : Memref sig .tc .vmem S1x16x192x192 .f32) (harg5 : arg5.IsWhole) (arg6 : Memref sig .tc .vmem S16x196x196 .f32) (harg6 : arg6.IsWhole)
    (v23 : FVec F S25x25 .bf16) (c0_i32 c1_i32 : BitVec 32) (X_arg3 : BufTy.Contents (Elt F) arg3.view.ty) (X_arg6 : BufTy.Contents (Elt F) arg6.view.ty)
    (k : Fin k0_t1_loop.trips) :
    tripL_k0_t1 (F := F) 𝒱 c bd i arg2 harg2 arg3 harg3 arg4 harg4 arg5 harg5 arg6 harg6 v23 c0_i32 c1_i32 X_arg3 X_arg6 k
      = [⟨Rect.unit (s := S1x16x192x192) (k0_off3 k) S1x16x8x192.size (k0_off3_inb k),
          tripPay v23
            (View.readAt (Elt F) arg3.view (Rect.unit (s := S1x192x192) (k0_off1 k) S1x8x192.size (k0_off1_inb k)).toLoadRect X_arg3)
            (View.readAt (Elt F) arg6.view (Rect.unit (s := S16x196x196) (k0_off2 k) S16x12x196.size (k0_off2_inb k)).toLoadRect X_arg6)⟩] := by
  unfold tripL_k0_t1 trip_k0_t1
  dsimp only
  sl_unfold_words
  rfl

/-- The body's stores into the output block are the 24 trips' stores, over the scratch as the five fills left it. -/
theorem body_stores (c : Dev nD) (i : grid0.Coords) (arg2 : Memref sig .tc .vmem S1x16x192x192 .f32) (harg2 : arg2.IsWhole) (arg3 : Memref sig .tc .vmem S1x192x192 .i32) (harg3 : arg3.IsWhole) (arg4 : Memref sig .tc .vmem S25x25 .f32) (harg4 : arg4.IsWhole) (arg5 : Memref sig .tc .vmem S1x16x192x192 .f32) (harg5 : arg5.IsWhole) (arg6 : Memref sig .tc .vmem S16x196x196 .f32) (harg6 : arg6.IsWhole)
    (x0 : Vec F S1x16x192x192 .f32) (x1 : Vec F S1x192x192 .i32) (x2 : Vec F S25x25 .f32) :
    (kernelRun0_A (F := F) c i arg2 harg2 arg3 harg3 arg4 harg4 arg5 harg5 arg6 harg6 x0 x1 x2).1
      = pb_k0_t1 (F := F) Variants.none c none i arg2 harg2 arg3 harg3 arg4 harg4 arg5 harg5 arg6 harg6
          (k0_pay14 (View.readAt (Elt F) arg4.view (Rect.unit (s := S25x25) ![0, 0] S25x25.size inb_S25x25_S25x25_0_0).toLoadRect (harg4.unread x2)))
          (0#32) (1#32) (harg3.unread x1)
          (arg6.view.writes (Elt F) arg6.view.junk
            (padStores (View.readAt (Elt F) arg2.view (Rect.unit (s := S1x16x192x192) ![0, 0, 0, 0] S1x16x192x192.size inb_S1x16x192x192_S1x16x192x192_0_0_0_0).toLoadRect (harg2.unread x0))))
          24 := by
  unfold kernelRun0_A
  dsimp only
  sl_unfold_words
  rfl

/-! ## The scratch planes after the five fills -/

/-- The padded plane of channel `ch` at padded row `r` and padded column `s`: the channel block at (r − 2, s − 2)
    inside, the zero word on the border of width two. -/
def padAt (X0 : Vec F S1x16x192x192 .f32) (ch : Fin 16) (r s : ℕ) : Elt F .f32 :=
  if h : (2 ≤ r ∧ r < 194) ∧ (2 ≤ s ∧ s < 194) then X0 (ix4 (0 : Fin 1) ch ⟨r - 2, by omega⟩ ⟨s - 2, by omega⟩)
  else Scalar.ofBits .f32 0x00000000#32

theorem padAt_inside (X0 : Vec F S1x16x192x192 .f32) (ch : Fin 16) (r s : ℕ) (hr : 2 ≤ r ∧ r < 194) (hs : 2 ≤ s ∧ s < 194) :
    padAt X0 ch r s = X0 (ix4 (0 : Fin 1) ch ⟨r - 2, by omega⟩ ⟨s - 2, by omega⟩) := dif_pos ⟨hr, hs⟩

theorem padAt_border (X0 : Vec F S1x16x192x192 .f32) (ch : Fin 16) (r s : ℕ) (h : ¬((2 ≤ r ∧ r < 194) ∧ (2 ≤ s ∧ s < 194))) :
    padAt X0 ch r s = Scalar.ofBits .f32 0x00000000#32 := dif_neg h

/-- All sixteen padded planes as one function of the scratch's index. -/
def padPlane (X0 : Vec F S1x16x192x192 .f32) : S16x196x196.Idx → Elt F .f32 :=
  fun y => padAt X0 ⟨(y 0).val, (y 0).isLt⟩ (y 1).val (y 2).val

/-- Each of the five fills is a block of the padded planes. -/
theorem padStores_block (X0 : Vec F S1x16x192x192 .f32) :
    ∀ p ∈ padStores X0, ∀ x : p.1.shape.Idx, p.2 x = padPlane X0 (p.1.emb x) := by
  intro p hp
  simp only [padStores, List.mem_cons, List.not_mem_nil, or_false] at hp
  rcases hp with rfl | rfl | rfl | rfl | rfl
  · intro (x : S16x192x192.Idx)
    have h0 : (x 0).val < 16 := (x 0).isLt
    have h1 : (x 1).val < 192 := (x 1).isLt
    have h2 : (x 2).val < 192 := (x 2).isLt
    show k0_pay13 X0 x = padAt X0 ⟨0 + 1 * (x 0).val, _⟩ (2 + 1 * (x 1).val) (2 + 1 * (x 2).val)
    rw [padAt_inside X0 _ _ _ (by omega) (by omega)]
    unfold k0_pay13
    rw [shapeCast_self]
    exact shapeCast_apply X0 _ x _ (by
      rw [Shape.rowMajor_val_four, Shape.rowMajor_val_three]
      show ((0 * 16 + (0 + 1 * (x 0).val)) * 192 + (2 + 1 * (x 1).val - 2)) * 192 + (2 + 1 * (x 2).val - 2)
        = ((x 0).val * 192 + (x 1).val) * 192 + (x 2).val
      omega)
  · intro (x : S16x192x2.Idx)
    have h2 : (x 2).val < 2 := (x 2).isLt
    show k0_pay12 (F := F) x = padAt X0 ⟨0 + 1 * (x 0).val, _⟩ (2 + 1 * (x 1).val) (194 + 1 * (x 2).val)
    rw [padAt_border X0 _ _ _ (by omega)]
    unfold k0_pay12
    rw [shapeCast_self]
    rfl
  · intro (x : S16x192x2.Idx)
    have h2 : (x 2).val < 2 := (x 2).isLt
    show k0_pay11 (F := F) x = padAt X0 ⟨0 + 1 * (x 0).val, _⟩ (2 + 1 * (x 1).val) (0 + 1 * (x 2).val)
    rw [padAt_border X0 _ _ _ (by omega)]
    unfold k0_pay11
    rw [shapeCast_self]
    rfl
  · intro (x : S16x2x196.Idx)
    have h1 : (x 1).val < 2 := (x 1).isLt
    show k0_pay10 (F := F) x = padAt X0 ⟨0 + 1 * (x 0).val, _⟩ (194 + 1 * (x 1).val) (0 + 1 * (x 2).val)
    rw [padAt_border X0 _ _ _ (by omega)]
    unfold k0_pay10
    rw [shapeCast_self]
    rfl
  · intro (x : S16x2x196.Idx)
    have h1 : (x 1).val < 2 := (x 1).isLt
    show k0_pay9 (F := F) x = padAt X0 ⟨0 + 1 * (x 0).val, _⟩ (0 + 1 * (x 1).val) (0 + 1 * (x 2).val)
    rw [padAt_border X0 _ _ _ (by omega)]
    unfold k0_pay9
    rw [shapeCast_self]
    rfl

/-- The five fills cover the scratch: the top two rows, the bottom two, and of the rows between the left two columns,
    the right two and the middle. -/
theorem padStores_cover (X0 : Vec F S1x16x192x192 .f32) (y : S16x196x196.Idx) : ∃ p ∈ padStores X0, y ∈ p.1.set := by
  have h0 : (y 0).val < 16 := (y 0).isLt
  have h1 : (y 1).val < 196 := (y 1).isLt
  have h2 : (y 2).val < 196 := (y 2).isLt
  by_cases ht : (y 1).val < 2
  · refine ⟨fillTop, by simp [padStores], ?_⟩
    show y ∈ (Rect.unit (s := S16x196x196) ![0, 0, 0] S16x2x196.size inb_S16x196x196_S16x2x196_0_0_0).set
    rw [Rect.mem_set_unit]
    intro a
    match a with
    | ⟨0, _⟩ => show 0 ≤ (y 0).val ∧ (y 0).val < 0 + 16; omega
    | ⟨1, _⟩ => show 0 ≤ (y 1).val ∧ (y 1).val < 0 + 2; omega
    | ⟨2, _⟩ => show 0 ≤ (y 2).val ∧ (y 2).val < 0 + 196; omega
  by_cases hb : 194 ≤ (y 1).val
  · refine ⟨fillBottom, by simp [padStores], ?_⟩
    show y ∈ (Rect.unit (s := S16x196x196) ![0, 194, 0] S16x2x196.size inb_S16x196x196_S16x2x196_0_194_0).set
    rw [Rect.mem_set_unit]
    intro a
    match a with
    | ⟨0, _⟩ => show 0 ≤ (y 0).val ∧ (y 0).val < 0 + 16; omega
    | ⟨1, _⟩ => show 194 ≤ (y 1).val ∧ (y 1).val < 194 + 2; omega
    | ⟨2, _⟩ => show 0 ≤ (y 2).val ∧ (y 2).val < 0 + 196; omega
  by_cases hl : (y 2).val < 2
  · refine ⟨fillLeft, by simp [padStores], ?_⟩
    show y ∈ (Rect.unit (s := S16x196x196) ![0, 2, 0] S16x192x2.size inb_S16x196x196_S16x192x2_0_2_0).set
    rw [Rect.mem_set_unit]
    intro a
    match a with
    | ⟨0, _⟩ => show 0 ≤ (y 0).val ∧ (y 0).val < 0 + 16; omega
    | ⟨1, _⟩ => show 2 ≤ (y 1).val ∧ (y 1).val < 2 + 192; omega
    | ⟨2, _⟩ => show 0 ≤ (y 2).val ∧ (y 2).val < 0 + 2; omega
  by_cases hrt : 194 ≤ (y 2).val
  · refine ⟨fillRight, by simp [padStores], ?_⟩
    show y ∈ (Rect.unit (s := S16x196x196) ![0, 2, 194] S16x192x2.size inb_S16x196x196_S16x192x2_0_2_194).set
    rw [Rect.mem_set_unit]
    intro a
    match a with
    | ⟨0, _⟩ => show 0 ≤ (y 0).val ∧ (y 0).val < 0 + 16; omega
    | ⟨1, _⟩ => show 2 ≤ (y 1).val ∧ (y 1).val < 2 + 192; omega
    | ⟨2, _⟩ => show 194 ≤ (y 2).val ∧ (y 2).val < 194 + 2; omega
  · refine ⟨fillMid X0, by simp [padStores], ?_⟩
    show y ∈ (Rect.unit (s := S16x196x196) ![0, 2, 2] S16x192x192.size inb_S16x196x196_S16x192x192_0_2_2).set
    rw [Rect.mem_set_unit]
    intro a
    match a with
    | ⟨0, _⟩ => show 0 ≤ (y 0).val ∧ (y 0).val < 0 + 16; omega
    | ⟨1, _⟩ => show 2 ≤ (y 1).val ∧ (y 1).val < 2 + 192; omega
    | ⟨2, _⟩ => show 2 ≤ (y 2).val ∧ (y 2).val < 2 + 192; omega

/-- So the scratch, read back after the five fills over anything, holds the padded planes. -/
theorem scratch_read (v : View sig .tc .vmem S16x196x196 .f32) (f : v.ty.Contents (Elt F)) (X0 : Vec F S1x16x192x192 .f32) :
    v.read (Elt F) (v.writes (Elt F) f (padStores X0)) = padPlane X0 := by
  rw [View.read_writes_eq_canon v f _ (padStores_cover X0)]
  funext y
  exact View.canon_apply_of_pieces (padPlane X0) _ (padStores_block X0) y (padStores_cover X0 y)

end Cert.KernelIdeal.Block

end
-- ==== Proof.ConvSpec.lean ====
/-
  The function both programs compute. For an image `x` of shape [8, 96, 192, 192], a bank of 25 filters of shape
  [5, 5] and a map `bk` of filter numbers of shape [8, 192, 192], the result at (b, c, h, w) is the 5 × 5 correlation of
  channel c of image b, padded with two zero rows and columns on every side, with the filter that pixel (b, h, w)
  selects: the sum over (i, j) of xpad[b, c, h + i, w + j] · bank[bk[b, h, w], i, j], the 25 terms added to zero one
  after the other, row by row — the order in which both programs add them, so that no law of the extended reals
  beyond the meaning of each operation is needed to join the two sides.
-/
import Idealize.ShloMosaic.PureOps.Ideal
import Idealize.ShloMosaic.Lib.ValueIdx

noncomputable section

namespace Cert.ConvSpec

open Idealize.ShloMosaic Idealize.ShloMosaic.ValueIdx

/-- The image's shape, the bank's and the filter map's. -/
abbrev SX : Shape := ⟨4, ![8, 96, 192, 192]⟩
abbrev SB : Shape := ⟨3, ![25, 5, 5]⟩
abbrev SK : Shape := ⟨3, ![8, 192, 192]⟩

/-- Twenty-five products added to zero in row-major order of the taps, each sum taken before the next term is added. -/
def conv25 (a k : Fin 5 → Fin 5 → EReal) : EReal :=
  0 + a 0 0 * k 0 0 + a 0 1 * k 0 1 + a 0 2 * k 0 2 + a 0 3 * k 0 3 + a 0 4 * k 0 4
    + a 1 0 * k 1 0 + a 1 1 * k 1 1 + a 1 2 * k 1 2 + a 1 3 * k 1 3 + a 1 4 * k 1 4
    + a 2 0 * k 2 0 + a 2 1 * k 2 1 + a 2 2 * k 2 2 + a 2 3 * k 2 3 + a 2 4 * k 2 4
    + a 3 0 * k 3 0 + a 3 1 * k 3 1 + a 3 2 * k 3 2 + a 3 3 * k 3 3 + a 3 4 * k 3 4
    + a 4 0 * k 4 0 + a 4 1 * k 4 1 + a 4 2 * k 4 2 + a 4 3 * k 4 3 + a 4 4 * k 4 4

/-- The image with two zero rows and two zero columns on every side, read at row `r` and column `s` of the padded
    plane (both below 196 where it is used): the image at (r − 2, s − 2) inside, zero on the border. -/
def padded (x : SX.Idx → EReal) (b : Fin 8) (c : Fin 96) (r s : ℕ) : EReal :=
  if h : (2 ≤ r ∧ r < 194) ∧ (2 ≤ s ∧ s < 194) then x (ix4 b c ⟨r - 2, by omega⟩ ⟨s - 2, by omega⟩) else 0

/-- The result at (b, c, h, w). The filter number is read as a natural number and capped at 24; where every
    filter number is below 25 the cap does nothing. -/
def Gat (x : SX.Idx → EReal) (bank : SB.Idx → EReal) (bk : SK.Idx → BitVec 32)
    (b : Fin 8) (c : Fin 96) (h w : Fin 192) : EReal :=
  conv25 (fun i j => padded x b c (h.val + i.val) (w.val + j.val))
    (fun i j => bank (ix3 ⟨min (bk (ix3 b h w)).toNat 24, by omega⟩ i j))

/-- The whole result array. -/
def G (x : SX.Idx → EReal) (bank : SB.Idx → EReal) (bk : SK.Idx → BitVec 32) : SX.Idx → EReal :=
  fun y => Gat x bank bk (y 0) (y 1) (y 2) (y 3)

theorem G_ix4 (x : SX.Idx → EReal) (bank : SB.Idx → EReal) (bk : SK.Idx → BitVec 32)
    (b : Fin 8) (c : Fin 96) (h w : Fin 192) : G x bank bk (ix4 b c h w) = Gat x bank bk b c h w := rfl

end Cert.ConvSpec

end
-- ==== Proof.KernelPay.lean ====
/-
  One trip's stored value read at an index: at channel ch, row dr of the trip and column w it is the 25 products of
  the padded window at (ch, dr + i, w + j) with tap 5 i + j of the filter that pixel (dr, w) selects, added to zero in
  row-major order of the taps. The filter is picked by a product of a one-hot row with the bank: where the filter number
  is below 25 exactly one entry of the row is one, the others zero, so the sum over the 25 filters is the selected entry.

  The steps. The product of the one-hot matrix with the bank is read at (row, tap) as a sum over the 25 filters, the
  dot's operand indices named axis by axis; an entry of the one-hot matrix is the comparison of the pixel's filter number
  with the column number, as a 0/1 word read as a real, so the sum keeps one term. Each of the 25 taps is the window
  shifted by (i, j) times one column of the picked filters spread over the channels; the accumulation is a left-nested
  sum that starts at the zero splat, and its stretches are read one after the other.
-/
import proofs.«427401_j73057393705079_3_alg».proof.Proof.KernelTrip
import proofs.«427401_j73057393705079_3_alg».proof.Proof.ConvSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Trip

open Cert.KernelIdeal Cert.KernelIdeal.Gen Idealize.ShloMosaic Idealize.ShloMosaic.ValueIdx

/-! ### The dot's operand indices, axis by axis -/

theorem lhs_axis0 (i : S1536x25.Idx) (q : dot_S1536x25_S25x25_S1536x25_1_0_0_1_n_n.contr.Idx) :
    (dot_S1536x25_S25x25_S1536x25_1_0_0_1_n_n.lhsIdx i q 0).val = (i 0).val := by
  unfold DotDims.lhsIdx
  rw [dif_neg (show ¬(0 : Fin S1536x25.rank) ∈ dot_S1536x25_S25x25_S1536x25_1_0_0_1_n_n.lhsBatch by decide),
    dif_pos (show (0 : Fin S1536x25.rank) ∈ dot_S1536x25_S25x25_S1536x25_1_0_0_1_n_n.lhsNonContracting by decide)]
  rfl

theorem lhs_axis1 (i : S1536x25.Idx) (q : dot_S1536x25_S25x25_S1536x25_1_0_0_1_n_n.contr.Idx) :
    (dot_S1536x25_S25x25_S1536x25_1_0_0_1_n_n.lhsIdx i q 1).val = (q ⟨0, by decide⟩).val :=
  dot_S1536x25_S25x25_S1536x25_1_0_0_1_n_n.lhsIdx_val_of_single rfl i q

theorem rhs_axis0 (i : S1536x25.Idx) (q : dot_S1536x25_S25x25_S1536x25_1_0_0_1_n_n.contr.Idx) :
    (dot_S1536x25_S25x25_S1536x25_1_0_0_1_n_n.rhsIdx i q 0).val = (q ⟨0, by decide⟩).val :=
  dot_S1536x25_S25x25_S1536x25_1_0_0_1_n_n.rhsIdx_val_of_single rfl i q

theorem rhs_axis1 (i : S1536x25.Idx) (q : dot_S1536x25_S25x25_S1536x25_1_0_0_1_n_n.contr.Idx) :
    (dot_S1536x25_S25x25_S1536x25_1_0_0_1_n_n.rhsIdx i q 1).val = (i 1).val := by
  unfold DotDims.rhsIdx
  rw [dif_neg (show ¬(1 : Fin S25x25.rank) ∈ dot_S1536x25_S25x25_S1536x25_1_0_0_1_n_n.rhsBatch by decide),
    dif_pos (show (1 : Fin S25x25.rank) ∈ dot_S1536x25_S25x25_S1536x25_1_0_0_1_n_n.rhsNonContracting by decide)]
  rfl

/-- The product of a [1536, 25] matrix with a [25, 25] one into the zero splat, read at (r, t): the sum over the 25
    middle positions. -/
theorem matmul_rt (lhs : FVec Ideal S1536x25 .bf16) (rhs : FVec Ideal S25x25 .bf16) (r : Fin 1536) (t : Fin 25) :
    matmul dot_S1536x25_S25x25_S1536x25_1_0_0_1_n_n none lhs rhs (constant (F := Ideal) S1536x25 .f32 0x00000000#32) (ix2 r t)
      = ∑ k : Fin 25, lhs (ix2 r k) * rhs (ix2 k t) := by
  refine (Ideal.matmul_constant_zero_apply dot_S1536x25_S25x25_S1536x25_1_0_0_1_n_n none lhs rhs (ix2 r t)).trans ?_
  rw [← Equiv.sum_comp (contrEquiv1 dot_S1536x25_S25x25_S1536x25_1_0_0_1_n_n 25 rfl rfl).symm]
  refine Finset.sum_congr rfl fun k _ => ?_
  have hk := contrEquiv1_symm_val dot_S1536x25_S25x25_S1536x25_1_0_0_1_n_n 25 rfl rfl k
  have el : dot_S1536x25_S25x25_S1536x25_1_0_0_1_n_n.lhsIdx (ix2 r t)
      ((contrEquiv1 dot_S1536x25_S25x25_S1536x25_1_0_0_1_n_n 25 rfl rfl).symm k) = ix2 r k := funext fun a => Fin.ext (by
    match a with
    | ⟨0, _⟩ => exact lhs_axis0 _ _
    | ⟨1, _⟩ => exact (lhs_axis1 _ _).trans hk)
  have er : dot_S1536x25_S25x25_S1536x25_1_0_0_1_n_n.rhsIdx (ix2 r t)
      ((contrEquiv1 dot_S1536x25_S25x25_S1536x25_1_0_0_1_n_n 25 rfl rfl).symm k) = ix2 k t := funext fun a => Fin.ext (by
    match a with
    | ⟨0, _⟩ => exact (rhs_axis0 _ _).trans hk
    | ⟨1, _⟩ => exact rhs_axis1 _ _)
  rw [el, er]

/-- The comparison "x is y" as a 0/1 word of 32 bits, read signed. -/
theorem cmpi_eq_toInt (x y : BitVec 32) : ((IntOp.cmpi .eq x y).setWidth 32).toInt = if x = y then 1 else 0 := by
  unfold IntOp.cmpi
  by_cases h : x = y
  · subst h
    rw [if_pos rfl]
    show ((BitVec.ofBool (x == x)).setWidth 32).toInt = 1
    rw [beq_self_eq_true]
    rfl
  · rw [if_neg h]
    show ((BitVec.ofBool (x == y)).setWidth 32).toInt = 0
    rw [show (x == y) = false from beq_eq_false_iff_ne.mpr h]
    rfl

/-- An entry of the one-hot row as an extended real: one where the filter number is k, zero elsewhere. -/
theorem onehot_scalar (x : BitVec 32) (k : Nat) (hk : k < 25) :
    (FloatOps.sitofp (F := Ideal) .f32 ((IntOp.cmpi .eq x (BitVec.ofNat 32 k)).setWidth 32) : EReal)
      = if x.toNat = k then 1 else 0 := by
  show (((((IntOp.cmpi .eq x (BitVec.ofNat 32 k)).setWidth 32).toInt : ℝ)) : EReal) = _
  rw [cmpi_eq_toInt]
  have hiff : x = BitVec.ofNat 32 k ↔ x.toNat = k := by
    constructor
    · intro h; rw [h, BitVec.toNat_ofNat]; omega
    · intro h; exact BitVec.eq_of_toNat_eq (by rw [h, BitVec.toNat_ofNat]; omega)
  by_cases h : x.toNat = k
  · rw [if_pos h, if_pos (hiff.mpr h)]; simp
  · rw [if_neg h, if_neg (fun h' => h (hiff.mp h'))]; simp

/-- An entry of the one-hot matrix: row 192 dr + w, column k, is one where pixel (dr, w)'s filter number is k. -/
theorem onehot_apply (v28 : Vec Ideal S1x8x192 .i32) (dr : Fin 8) (w : Fin 192) (k : Fin 25) :
    shapeCast S1536x25
      (truncf .bf16 (sitofp (F := Ideal) .f32 (extui 32 (cmpi .eq
        (broadcastTo S8x192x25 (shapeCast S8x192x1 (shapeCast S8x192 v28 shapeCasts_S1x8x192_S8x192)
          shapeCasts_S8x192_S8x192x1) broadcasts_S8x192x1_S8x192x25)
        (iota .tc S8x192x25 32 [2] iota_S8x192x25_d2_w32)) natLt_1_32)) bitsLt_bf16_f32)
      shapeCasts_S8x192x25_S1536x25 (ix2 (⟨192 * dr.val + w.val, by omega⟩ : Fin 1536) k)
      = if (v28 (ix3 (0 : Fin 1) dr w)).toNat = k.val then 1 else 0 := by
  refine (shapeCast_apply _ shapeCasts_S8x192x25_S1536x25 _ (ix3 dr w k) (by
    rw [Shape.rowMajor_val_two, Shape.rowMajor_val_three]
    show (dr.val * 192 + w.val) * 25 + k.val = (192 * dr.val + w.val) * 25 + k.val
    omega)).trans ?_
  have e1 : broadcastTo S8x192x25 (shapeCast S8x192x1 (shapeCast S8x192 v28 shapeCasts_S1x8x192_S8x192)
      shapeCasts_S8x192_S8x192x1) broadcasts_S8x192x1_S8x192x25 (ix3 dr w k) = v28 (ix3 (0 : Fin 1) dr w) := by
    refine (broadcastTo_apply _ broadcasts_S8x192x1_S8x192x25 (ix3 dr w k) (ix3 dr w (0 : Fin 1)) (fun a => by
      match a with
      | ⟨0, _⟩ => rfl
      | ⟨1, _⟩ => rfl
      | ⟨2, _⟩ => rfl)).trans ?_
    refine (shapeCast_apply _ shapeCasts_S8x192_S8x192x1 (ix3 dr w (0 : Fin 1)) (ix2 dr w) (by
      rw [Shape.rowMajor_val_two, Shape.rowMajor_val_three]
      show dr.val * 192 + w.val = (dr.val * 192 + w.val) * 1 + 0
      omega)).trans ?_
    exact shapeCast_1ab_ab_apply v28 shapeCasts_S1x8x192_S8x192 dr w
  have e2 := iota_single_apply .tc S8x192x25 32 (2 : Fin 3) iota_S8x192x25_d2_w32 (ix3 dr w k)
  show FloatOps.sitofp (F := Ideal) .f32 ((IntOp.cmpi .eq
      (broadcastTo S8x192x25 (shapeCast S8x192x1 (shapeCast S8x192 v28 shapeCasts_S1x8x192_S8x192)
        shapeCasts_S8x192_S8x192x1) broadcasts_S8x192x1_S8x192x25 (ix3 dr w k))
      (iota .tc S8x192x25 32 [2] iota_S8x192x25_d2_w32 (ix3 dr w k))).setWidth 32) = _
  rw [e1, e2]
  exact onehot_scalar _ k.val k.isLt

/-- The picked filters at (dr, w, t): tap t of the filter whose number pixel (dr, w) carries. -/
theorem picked_apply (v23 : FVec Ideal S25x25 .bf16) (v28 : Vec Ideal S1x8x192 .i32) (hr : ∀ p, (v28 p).toNat < 25)
    (dr : Fin 8) (w : Fin 192) (t : Fin 25) :
    k0_pay2 v23 v28 (ix3 dr w t) = v23 (ix2 ⟨(v28 (ix3 (0 : Fin 1) dr w)).toNat, hr _⟩ t) := by
  unfold k0_pay2
  refine (shapeCast_apply _ shapeCasts_S1536x25_S8x192x25 (ix3 dr w t) (ix2 (⟨192 * dr.val + w.val, by omega⟩ : Fin 1536) t) (by
    rw [Shape.rowMajor_val_two, Shape.rowMajor_val_three]
    show (192 * dr.val + w.val) * 25 + t.val = (dr.val * 192 + w.val) * 25 + t.val
    omega)).trans ?_
  refine (matmul_rt _ v23 _ t).trans ?_
  rw [Finset.sum_eq_single (⟨(v28 (ix3 (0 : Fin 1) dr w)).toNat, hr _⟩ : Fin 25)]
  · rw [onehot_apply, if_pos rfl, one_mul]
  · intro k _ hne
    rw [onehot_apply, if_neg (fun h => hne (Fin.ext h.symm)), zero_mul]
  · intro h; exact absurd (Finset.mem_univ _) h

/-! ### The layout operations of one tap, each read at an index -/

/-- The window of the padded block shifted by (i, j), read at (ch, dr, w). -/
theorem win_apply (v41 : Vec Ideal S16x12x196 .f32) (i j : Nat) (hs : S16x12x196.Slices ![0, i, j] S16x8x192)
    (ch : Fin 16) (dr : Fin 8) (w : Fin 192) (hi : dr.val + i < 12) (hj : w.val + j < 196) :
    extractStridedSlice S16x8x192 ![0, i, j] v41 hs (ix3 ch dr w) = v41 (ix3 ch ⟨dr.val + i, hi⟩ ⟨w.val + j, hj⟩) :=
  extractStridedSlice_apply _ v41 hs (ix3 ch dr w) (ix3 ch ⟨dr.val + i, hi⟩ ⟨w.val + j, hj⟩) (fun a => by
    match a with
    | ⟨0, _⟩ => exact (Nat.zero_add _).symm
    | ⟨1, _⟩ => exact Nat.add_comm _ _
    | ⟨2, _⟩ => exact Nat.add_comm _ _)

/-- Column t of the picked filters as an [8, 192] array, read at (dr, w). -/
theorem col_apply (P : FVec Ideal S8x192x25 .f32) (t : Nat) (ht : S8x192x25.Slices ![0, 0, t] S8x192x1) (htt : t < 25)
    (dr : Fin 8) (w : Fin 192) :
    shapeCast S8x192 (extractStridedSlice S8x192x1 ![0, 0, t] P ht) shapeCasts_S8x192x1_S8x192 (ix2 dr w)
      = P (ix3 dr w ⟨t, htt⟩) := by
  refine (shapeCast_apply _ shapeCasts_S8x192x1_S8x192 (ix2 dr w) (ix3 dr w (0 : Fin 1)) (by
    rw [Shape.rowMajor_val_three, Shape.rowMajor_val_two]
    show (dr.val * 192 + w.val) * 1 + 0 = dr.val * 192 + w.val
    omega)).trans ?_
  exact extractStridedSlice_apply _ P ht (ix3 dr w (0 : Fin 1)) (ix3 dr w ⟨t, htt⟩) (fun a => by
    match a with
    | ⟨0, _⟩ => exact (Nat.zero_add _).symm
    | ⟨1, _⟩ => exact (Nat.zero_add _).symm
    | ⟨2, _⟩ => exact (Nat.add_zero _).symm)

/-- An [8, 192] array spread over the sixteen channels, read at (ch, dr, w). -/
theorem row_apply (x : FVec Ideal S8x192 .f32) (ch : Fin 16) (dr : Fin 8) (w : Fin 192) :
    broadcastTo S16x8x192 (shapeCast S1x8x192 x shapeCasts_S8x192_S1x8x192) broadcasts_S1x8x192_S16x8x192 (ix3 ch dr w)
      = x (ix2 dr w) := by
  refine (broadcastTo_apply _ broadcasts_S1x8x192_S16x8x192 (ix3 ch dr w) (ix3 (0 : Fin 1) dr w) (fun a => by
    match a with
    | ⟨0, _⟩ => rfl
    | ⟨1, _⟩ => rfl
    | ⟨2, _⟩ => rfl)).trans ?_
  exact shapeCast_ab_1ab_apply _ shapeCasts_S8x192_S1x8x192 (0 : Fin 1) dr w

/-- The product the kernel adds for the window offset (i, j) and column t of the picked filters, at (ch, dr, w). -/
def tapv (P : FVec Ideal S8x192x25 .f32) (v41 : Vec Ideal S16x12x196 .f32) (ch : Fin 16) (dr : Fin 8) (w : Fin 192)
    (i j : Fin 5) (t : Fin 25) : EReal :=
  v41 (ix3 ch ⟨dr.val + i.val, by omega⟩ ⟨w.val + j.val, by omega⟩) * P (ix3 dr w t)

/-- One tap of the kernel: the shifted window times the spread column, read at (ch, dr, w). -/
theorem tap_apply (P : FVec Ideal S8x192x25 .f32) (v41 : Vec Ideal S16x12x196 .f32) (i j : Fin 5) (t : Fin 25)
    (hs : S16x12x196.Slices ![0, i.val, j.val] S16x8x192) (ht : S8x192x25.Slices ![0, 0, t.val] S8x192x1)
    (ch : Fin 16) (dr : Fin 8) (w : Fin 192) :
    mulf (extractStridedSlice S16x8x192 ![0, i.val, j.val] v41 hs)
        (broadcastTo S16x8x192 (shapeCast S1x8x192 (shapeCast S8x192 (extractStridedSlice S8x192x1 ![0, 0, t.val] P ht)
          shapeCasts_S8x192x1_S8x192) shapeCasts_S8x192_S1x8x192) broadcasts_S1x8x192_S16x8x192) (ix3 ch dr w)
      = tapv P v41 ch dr w i j t := by
  refine (mulf_apply _ _ _).trans (congrArg₂ (· * ·) ?_ ?_)
  · exact win_apply v41 i.val j.val hs ch dr w _ _
  · exact (row_apply _ ch dr w).trans (col_apply P t.val ht t.isLt dr w)

/-! ### The kernel's stretches, each read at an index -/

/-- The product at tap (0, 4), the fifth of the first row. -/
theorem pay4_apply (v23 : FVec Ideal S25x25 .bf16) (v28 : Vec Ideal S1x8x192 .i32) (v41 : Vec Ideal S16x12x196 .f32)
    (ch : Fin 16) (dr : Fin 8) (w : Fin 192) :
    k0_pay4 v23 v28 v41 (ix3 ch dr w) = tapv (k0_pay2 v23 v28) v41 ch dr w 0 4 4 := by
  unfold k0_pay4
  exact tap_apply (k0_pay2 v23 v28) v41 0 4 4 _ _ ch dr w

/-- The zero splat plus the first four taps of the first row. -/
theorem pay3_apply (v23 : FVec Ideal S25x25 .bf16) (v28 : Vec Ideal S1x8x192 .i32) (v41 : Vec Ideal S16x12x196 .f32)
    (ch : Fin 16) (dr : Fin 8) (w : Fin 192) :
    k0_pay3 v23 v28 v41 (ix3 ch dr w)
      = 0 + tapv (k0_pay2 v23 v28) v41 ch dr w 0 0 0 + tapv (k0_pay2 v23 v28) v41 ch dr w 0 1 1
          + tapv (k0_pay2 v23 v28) v41 ch dr w 0 2 2 + tapv (k0_pay2 v23 v28) v41 ch dr w 0 3 3 := by
  unfold k0_pay3
  refine (addf_apply _ _ _).trans (congrArg₂ (· + ·) ?_ (tap_apply (k0_pay2 v23 v28) v41 0 3 3 _ _ ch dr w))
  refine (addf_apply _ _ _).trans (congrArg₂ (· + ·) ?_ (tap_apply (k0_pay2 v23 v28) v41 0 2 2 _ _ ch dr w))
  refine (addf_apply _ _ _).trans (congrArg₂ (· + ·) ?_ (tap_apply (k0_pay2 v23 v28) v41 0 1 1 _ _ ch dr w))
  refine (addf_apply _ _ _).trans (congrArg₂ (· + ·) ?_ (tap_apply (k0_pay2 v23 v28) v41 0 0 0 _ _ ch dr w))
  exact Ideal.ofBits_zero_f32

/-- Two partial sums joined, then the second row of taps and the first three of the third. -/
theorem pay5_apply (P : FVec Ideal S8x192x25 .f32) (v41 : Vec Ideal S16x12x196 .f32) (a b : FVec Ideal S16x8x192 .f32)
    (ch : Fin 16) (dr : Fin 8) (w : Fin 192) :
    k0_pay5 P v41 a b (ix3 ch dr w)
      = a (ix3 ch dr w) + b (ix3 ch dr w) + tapv P v41 ch dr w 1 0 5 + tapv P v41 ch dr w 1 1 6 + tapv P v41 ch dr w 1 2 7 + tapv P v41 ch dr w 1 3 8 + tapv P v41 ch dr w 1 4 9
          + tapv P v41 ch dr w 2 0 10 + tapv P v41 ch dr w 2 1 11 + tapv P v41 ch dr w 2 2 12 := by
  unfold k0_pay5
  refine (addf_apply _ _ _).trans (congrArg₂ (· + ·) ?_ (tap_apply P v41 2 2 12 _ _ ch dr w))
  refine (addf_apply _ _ _).trans (congrArg₂ (· + ·) ?_ (tap_apply P v41 2 1 11 _ _ ch dr w))
  refine (addf_apply _ _ _).trans (congrArg₂ (· + ·) ?_ (tap_apply P v41 2 0 10 _ _ ch dr w))
  refine (addf_apply _ _ _).trans (congrArg₂ (· + ·) ?_ (tap_apply P v41 1 4 9 _ _ ch dr w))
  refine (addf_apply _ _ _).trans (congrArg₂ (· + ·) ?_ (tap_apply P v41 1 3 8 _ _ ch dr w))
  refine (addf_apply _ _ _).trans (congrArg₂ (· + ·) ?_ (tap_apply P v41 1 2 7 _ _ ch dr w))
  refine (addf_apply _ _ _).trans (congrArg₂ (· + ·) ?_ (tap_apply P v41 1 1 6 _ _ ch dr w))
  refine (addf_apply _ _ _).trans (congrArg₂ (· + ·) ?_ (tap_apply P v41 1 0 5 _ _ ch dr w))
  exact addf_apply _ _ _

/-- A partial sum plus the rest of the third row, the fourth row and the first two taps of the fifth; tap (2, 3)'s
    window and column arrive as separate values. -/
theorem pay8_apply (P : FVec Ideal S8x192x25 .f32) (v41 : Vec Ideal S16x12x196 .f32) (a : FVec Ideal S16x8x192 .f32)
    (ch : Fin 16) (dr : Fin 8) (w : Fin 192) :
    k0_pay8 P v41 a (k0_pay6 P) (k0_pay7 v41) (ix3 ch dr w)
      = a (ix3 ch dr w) + tapv P v41 ch dr w 2 3 13 + tapv P v41 ch dr w 2 4 14
          + tapv P v41 ch dr w 3 0 15 + tapv P v41 ch dr w 3 1 16 + tapv P v41 ch dr w 3 2 17 + tapv P v41 ch dr w 3 3 18 + tapv P v41 ch dr w 3 4 19
          + tapv P v41 ch dr w 4 0 20 + tapv P v41 ch dr w 4 1 21 := by
  unfold k0_pay8 k0_pay6 k0_pay7
  refine (addf_apply _ _ _).trans (congrArg₂ (· + ·) ?_ (tap_apply P v41 4 1 21 _ _ ch dr w))
  refine (addf_apply _ _ _).trans (congrArg₂ (· + ·) ?_ (tap_apply P v41 4 0 20 _ _ ch dr w))
  refine (addf_apply _ _ _).trans (congrArg₂ (· + ·) ?_ (tap_apply P v41 3 4 19 _ _ ch dr w))
  refine (addf_apply _ _ _).trans (congrArg₂ (· + ·) ?_ (tap_apply P v41 3 3 18 _ _ ch dr w))
  refine (addf_apply _ _ _).trans (congrArg₂ (· + ·) ?_ (tap_apply P v41 3 2 17 _ _ ch dr w))
  refine (addf_apply _ _ _).trans (congrArg₂ (· + ·) ?_ (tap_apply P v41 3 1 16 _ _ ch dr w))
  refine (addf_apply _ _ _).trans (congrArg₂ (· + ·) ?_ (tap_apply P v41 3 0 15 _ _ ch dr w))
  refine (addf_apply _ _ _).trans (congrArg₂ (· + ·) ?_ (tap_apply P v41 2 4 14 _ _ ch dr w))
  exact (addf_apply _ _ _).trans (congrArg₂ (· + ·) rfl (tap_apply P v41 2 3 13 _ _ ch dr w))

/-- A partial sum plus the last three taps, seen through the added leading unit axis. -/
theorem pay1_apply (P : FVec Ideal S8x192x25 .f32) (v41 : Vec Ideal S16x12x196 .f32) (a : FVec Ideal S16x8x192 .f32)
    (ch : Fin 16) (dr : Fin 8) (w : Fin 192) :
    k0_pay1 P v41 a (ix4 (0 : Fin 1) ch dr w)
      = a (ix3 ch dr w) + tapv P v41 ch dr w 4 2 22 + tapv P v41 ch dr w 4 3 23 + tapv P v41 ch dr w 4 4 24 := by
  unfold k0_pay1
  refine (shapeCast_abc_1abc_apply _ shapeCasts_S16x8x192_S1x16x8x192 (0 : Fin 1) ch dr w).trans ?_
  refine (addf_apply _ _ _).trans (congrArg₂ (· + ·) ?_ (tap_apply P v41 4 4 24 _ _ ch dr w))
  refine (addf_apply _ _ _).trans (congrArg₂ (· + ·) ?_ (tap_apply P v41 4 3 23 _ _ ch dr w))
  exact (addf_apply _ _ _).trans (congrArg₂ (· + ·) rfl (tap_apply P v41 4 2 22 _ _ ch dr w))

/-- One trip's stored value at (0, ch, dr, w): the 25 taps of the selected filter over the window, added to zero in
    row-major order. -/
theorem tripPay_apply (v23 : FVec Ideal S25x25 .bf16) (v28 : Vec Ideal S1x8x192 .i32) (v41 : Vec Ideal S16x12x196 .f32)
    (hr : ∀ p, (v28 p).toNat < 25) (ch : Fin 16) (dr : Fin 8) (w : Fin 192) :
    tripPay v23 v28 v41 (ix4 (0 : Fin 1) ch dr w)
      = Cert.ConvSpec.conv25
          (fun i j => v41 (ix3 ch ⟨dr.val + i.val, by omega⟩ ⟨w.val + j.val, by omega⟩))
          (fun i j => v23 (ix2 ⟨(v28 (ix3 (0 : Fin 1) dr w)).toNat, hr _⟩ ⟨5 * i.val + j.val, by omega⟩)) := by
  unfold tripPay picked
  rw [pay1_apply, pay8_apply, pay5_apply, pay3_apply, pay4_apply]
  unfold tapv Cert.ConvSpec.conv25
  simp only [picked_apply v23 v28 hr]
  rfl

end Cert.KernelIdeal.Trip

end
-- ==== Proof.KernelBlockValue.lean ====
/-
  The output block of one grid point as a function of the point's three input blocks. Every trip's store is eight rows of
  one function of the block index: at channel ch, row h and column w the 25 taps of channel ch's zero-padded plane at
  (h + i, w + j) against column 5 i + j of the row of the flattened bank that the pixel's filter number selects. The 24
  stores tile the block, so the block read back after the body is that function.
-/
import proofs.«427401_j73057393705079_3_alg».proof.Proof.KernelBlock
import proofs.«427401_j73057393705079_3_alg».proof.Proof.KernelPay
import proofs.«427401_j73057393705079_3_alg».proof.Proof.ConvSpec

set_option maxRecDepth 16384

noncomputable section

namespace Cert.KernelIdeal.Block

open Cert.KernelIdeal Cert.KernelIdeal.Gen Cert.KernelIdeal.Trip
open Idealize.ShloMosaic Idealize.ShloMosaic.TcCoe Idealize.ShloMosaic.Tactic Idealize.ShloMosaic.ValueIdx
open Idealize.SL Idealize.SL.Sem

open Cert.ConvSpec

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The padded plane does not care how its coordinates are written. -/
theorem padAt_congr (X0 : Vec Ideal S1x16x192x192 .f32) {ch ch' : Fin 16} {r r' s s' : ℕ}
    (hc : ch.val = ch'.val) (hr : r = r') (hs : s = s') : padAt X0 ch r s = padAt X0 ch' r' s' := by
  obtain rfl : ch = ch' := Fin.ext hc
  subst hr; subst hs; rfl

/-- What a point's output block holds at channel `ch`, row `h` and column `w`: the 25 taps of the padded plane
    against the filter that the pixel's number selects from the flattened bank (tap (i, j) is column 5 i + j). -/
def outAt (X0 : Vec Ideal S1x16x192x192 .f32) (X1 : Vec Ideal S1x192x192 .i32) (X2 : Vec Ideal S25x25 .f32)
    (ch : Fin 16) (h w : Fin 192) : EReal :=
  conv25 (fun i j => padAt X0 ch (h.val + i.val) (w.val + j.val))
    (fun i j => X2 (ix2 ⟨min (X1 (ix3 (0 : Fin 1) h w)).toNat 24, by omega⟩ ⟨5 * i.val + j.val, by omega⟩))

/-- The whole output block of a point as one function of the point's three input blocks. -/
def outBlk (X0 : Vec Ideal S1x16x192x192 .f32) (X1 : Vec Ideal S1x192x192 .i32) (X2 : Vec Ideal S25x25 .f32) :
    S1x16x192x192.Idx → EReal :=
  fun y => outAt X0 X1 X2 ⟨(y 1).val, (y 1).isLt⟩ ⟨(y 2).val, (y 2).isLt⟩ ⟨(y 3).val, (y 3).isLt⟩

/-- The bank enters the trips in the narrow format, which at the extended reals is the bank itself. -/
theorem bank_narrow (X2 : Vec Ideal S25x25 .f32) : k0_pay14 (F := Ideal) X2 = X2 := by
  unfold k0_pay14
  rw [shapeCast_self]
  rfl

/-- Trip k's store is rows 8k … 8k+7 of the block function. -/
theorem trip_block (X0 : Vec Ideal S1x16x192x192 .f32) (X1 : Vec Ideal S1x192x192 .i32) (X2 : Vec Ideal S25x25 .f32)
    (hr : ∀ p, (X1 p).toNat < 25) (k : Fin k0_t1_loop.trips) (x : S1x16x8x192.Idx) :
    tripPay (F := Ideal) X2
        (View.ld X1 (Rect.unit (s := S1x192x192) (k0_off1 k) S1x8x192.size (k0_off1_inb k)))
        (View.ld (padPlane X0) (Rect.unit (s := S16x196x196) (k0_off2 k) S16x12x196.size (k0_off2_inb k))) x
      = outBlk X0 X1 X2 ((Rect.unit (s := S1x16x192x192) (k0_off3 k) S1x16x8x192.size (k0_off3_inb k)).emb x) := by
  have hk : k.val < 24 := Nat.lt_of_lt_of_le k.isLt k0_t1_abs.2.1
  have e1 : k0_off1 k = ![0, 8 * k.val, 0] := k0_off1_eq k
  have e2 : k0_off2 k = ![0, 8 * k.val, 0] := k0_off2_eq k
  have e3 : k0_off3 k = ![0, 0, 8 * k.val, 0] := k0_off3_eq k
  have h0 : (x 0).val < 1 := (x 0).isLt
  have h1 : (x 1).val < 16 := (x 1).isLt
  have h2 : (x 2).val < 8 := (x 2).isLt
  have h3 : (x 3).val < 192 := (x 3).isLt
  have hx : x = ix4 (0 : Fin 1) (⟨(x 1).val, h1⟩ : Fin 16) (⟨(x 2).val, h2⟩ : Fin 8) (⟨(x 3).val, h3⟩ : Fin 192) := by
    funext a; apply Fin.ext
    match a with
    | ⟨0, _⟩ => show (x 0).val = 0; omega
    | ⟨1, _⟩ => rfl
    | ⟨2, _⟩ => rfl
    | ⟨3, _⟩ => rfl
  have hr' : ∀ p, ((View.ld X1 (Rect.unit (s := S1x192x192) (k0_off1 k) S1x8x192.size (k0_off1_inb k))) p).toNat < 25 :=
    fun p => hr _
  rw [hx, tripPay_apply X2 _ _ hr' ⟨(x 1).val, h1⟩ ⟨(x 2).val, h2⟩ ⟨(x 3).val, h3⟩]
  rw [← hx]
  show _ = outAt X0 X1 X2 ⟨(k0_off3 k) 1 + 1 * (x 1).val, _⟩ ⟨(k0_off3 k) 2 + 1 * (x 2).val, _⟩ ⟨(k0_off3 k) 3 + 1 * (x 3).val, _⟩
  unfold outAt
  have ha : (fun (i j : Fin 5) => View.ld (padPlane X0) (Rect.unit (s := S16x196x196) (k0_off2 k) S16x12x196.size (k0_off2_inb k))
        (ix3 (⟨(x 1).val, h1⟩ : Fin 16) ⟨(x 2).val + i.val, by omega⟩ ⟨(x 3).val + j.val, by omega⟩))
      = fun (i j : Fin 5) => padAt X0 ⟨(k0_off3 k) 1 + 1 * (x 1).val, by rw [e3]; show 0 + 1 * (x 1).val < 16; omega⟩
          ((k0_off3 k) 2 + 1 * (x 2).val + i.val) ((k0_off3 k) 3 + 1 * (x 3).val + j.val) := by
    funext i j
    show padAt X0 ⟨(k0_off2 k) 0 + 1 * (x 1).val, _⟩ ((k0_off2 k) 1 + 1 * ((x 2).val + i.val)) ((k0_off2 k) 2 + 1 * ((x 3).val + j.val)) = _
    refine padAt_congr X0 ?_ ?_ ?_
    · show (k0_off2 k) 0 + 1 * (x 1).val = (k0_off3 k) 1 + 1 * (x 1).val
      rw [e2, e3]; rfl
    · rw [e2, e3]; show 8 * k.val + 1 * ((x 2).val + i.val) = 8 * k.val + 1 * (x 2).val + i.val; omega
    · rw [e2, e3]; show 0 + 1 * ((x 3).val + j.val) = 0 + 1 * (x 3).val + j.val; omega
  have hkk : (fun (i j : Fin 5) => X2 (ix2 (⟨((View.ld X1 (Rect.unit (s := S1x192x192) (k0_off1 k) S1x8x192.size (k0_off1_inb k)))
          (ix3 (0 : Fin 1) (⟨(x 2).val, h2⟩ : Fin 8) (⟨(x 3).val, h3⟩ : Fin 192))).toNat, hr' _⟩ : Fin 25) (⟨5 * i.val + j.val, by omega⟩ : Fin 25)))
      = fun (i j : Fin 5) => X2 (ix2 (⟨min (X1 (ix3 (0 : Fin 1)
            (⟨(k0_off3 k) 2 + 1 * (x 2).val, by rw [e3]; show 8 * k.val + 1 * (x 2).val < 192; omega⟩ : Fin 192)
            (⟨(k0_off3 k) 3 + 1 * (x 3).val, by rw [e3]; show 0 + 1 * (x 3).val < 192; omega⟩ : Fin 192))).toNat 24, by omega⟩ : Fin 25)
          (⟨5 * i.val + j.val, by omega⟩ : Fin 25)) := by
    funext i j
    refine congrArg X2 (funext fun a => Fin.ext ?_)
    match a with
    | ⟨0, _⟩ =>
      show ((View.ld X1 (Rect.unit (s := S1x192x192) (k0_off1 k) S1x8x192.size (k0_off1_inb k)))
          (ix3 (0 : Fin 1) (⟨(x 2).val, h2⟩ : Fin 8) (⟨(x 3).val, h3⟩ : Fin 192))).toNat = min _ 24
      have hrd : (View.ld X1 (Rect.unit (s := S1x192x192) (k0_off1 k) S1x8x192.size (k0_off1_inb k)))
          (ix3 (0 : Fin 1) (⟨(x 2).val, h2⟩ : Fin 8) (⟨(x 3).val, h3⟩ : Fin 192))
          = X1 (ix3 (0 : Fin 1)
            (⟨(k0_off3 k) 2 + 1 * (x 2).val, by rw [e3]; show 8 * k.val + 1 * (x 2).val < 192; omega⟩ : Fin 192)
            (⟨(k0_off3 k) 3 + 1 * (x 3).val, by rw [e3]; show 0 + 1 * (x 3).val < 192; omega⟩ : Fin 192)) := by
        refine congrArg X1 (funext fun b => Fin.ext ?_)
        match b with
        | ⟨0, _⟩ => show (k0_off1 k) 0 + 1 * 0 = 0; rw [e1]; rfl
        | ⟨1, _⟩ => show (k0_off1 k) 1 + 1 * (x 2).val = (k0_off3 k) 2 + 1 * (x 2).val; rw [e1, e3]; rfl
        | ⟨2, _⟩ => show (k0_off1 k) 2 + 1 * (x 3).val = (k0_off3 k) 3 + 1 * (x 3).val; rw [e1, e3]; rfl
      rw [hrd]
      exact (Nat.min_eq_left (by have := hr (ix3 (0 : Fin 1)
            (⟨(k0_off3 k) 2 + 1 * (x 2).val, by rw [e3]; show 8 * k.val + 1 * (x 2).val < 192; omega⟩ : Fin 192)
            (⟨(k0_off3 k) 3 + 1 * (x 3).val, by rw [e3]; show 0 + 1 * (x 3).val < 192; omega⟩ : Fin 192)); omega)).symm
    | ⟨1, _⟩ => rfl
  rw [ha, hkk]

/-- Every store of the first n trips is a block of the block function. -/
theorem stores_block (c : Dev nD) (i : grid0.Coords) (arg2 : Memref sig .tc .vmem S1x16x192x192 .f32) (harg2 : arg2.IsWhole) (arg3 : Memref sig .tc .vmem S1x192x192 .i32) (harg3 : arg3.IsWhole) (arg4 : Memref sig .tc .vmem S25x25 .f32) (harg4 : arg4.IsWhole) (arg5 : Memref sig .tc .vmem S1x16x192x192 .f32) (harg5 : arg5.IsWhole) (arg6 : Memref sig .tc .vmem S16x196x196 .f32) (harg6 : arg6.IsWhole)
    (x0 : Vec Ideal S1x16x192x192 .f32) (x1 : Vec Ideal S1x192x192 .i32) (x2 : Vec Ideal S25x25 .f32)
    (hr : ∀ p, (x1 p).toNat < 25) :
    ∀ n, n ≤ 24 → ∀ p ∈ pb_k0_t1 (F := Ideal) Variants.none c none i arg2 harg2 arg3 harg3 arg4 harg4 arg5 harg5 arg6 harg6
          (k0_pay14 (View.readAt (Elt Ideal) arg4.view (Rect.unit (s := S25x25) ![0, 0] S25x25.size inb_S25x25_S25x25_0_0).toLoadRect (harg4.unread x2)))
          (0#32) (1#32) (harg3.unread x1)
          (arg6.view.writes (Elt Ideal) arg6.view.junk
            (padStores (View.readAt (Elt Ideal) arg2.view (Rect.unit (s := S1x16x192x192) ![0, 0, 0, 0] S1x16x192x192.size inb_S1x16x192x192_S1x16x192x192_0_0_0_0).toLoadRect (harg2.unread x0))))
          n, ∀ x : p.1.shape.Idx, p.2 x = outBlk x0 x1 x2 (p.1.emb x)
  | 0, _ => fun p hp => absurd hp List.not_mem_nil
  | n + 1, hn => by
    intro p hp
    have htr : k0_t1_loop.trips = 24 := rfl
    have hlt : n < k0_t1_loop.trips := by rw [htr]; omega
    rw [show n + 1 = (⟨n, hlt⟩ : Fin k0_t1_loop.trips).val + 1 from rfl, pb_k0_t1_succ, trip_store] at hp
    rcases List.mem_append.mp hp with h | h
    · rw [List.mem_singleton] at h
      subst h
      intro x
      have hp2 : View.readAt (Elt Ideal) arg2.view (Rect.unit (s := S1x16x192x192) ![0, 0, 0, 0] S1x16x192x192.size inb_S1x16x192x192_S1x16x192x192_0_0_0_0).toLoadRect (harg2.unread x0) = x0 := by
        rw [View.readAt_eq_ld, harg2.read_unread, View.ld_unit_zero (S := S1x16x192x192) hz4]
      have hp4 : View.readAt (Elt Ideal) arg4.view (Rect.unit (s := S25x25) ![0, 0] S25x25.size inb_S25x25_S25x25_0_0).toLoadRect (harg4.unread x2) = x2 := by
        rw [View.readAt_eq_ld, harg4.read_unread, View.ld_unit_zero (S := S25x25) hz2]
      show tripPay _ _ _ x = _
      rw [hp2, hp4, bank_narrow, View.readAt_eq_ld, harg3.read_unread, View.readAt_eq_ld, scratch_read]
      exact trip_block x0 x1 x2 hr ⟨n, hlt⟩ x
    · exact stores_block c i arg2 harg2 arg3 harg3 arg4 harg4 arg5 harg5 arg6 harg6 x0 x1 x2 hr n (by omega) p h

/-- THE OUTPUT BLOCK of a point: the block function of its three input blocks. -/
theorem out_block (c : Dev nD) (i : grid0.Coords) (arg2 : Memref sig .tc .vmem S1x16x192x192 .f32) (harg2 : arg2.IsWhole) (arg3 : Memref sig .tc .vmem S1x192x192 .i32) (harg3 : arg3.IsWhole) (arg4 : Memref sig .tc .vmem S25x25 .f32) (harg4 : arg4.IsWhole) (arg5 : Memref sig .tc .vmem S1x16x192x192 .f32) (harg5 : arg5.IsWhole) (arg6 : Memref sig .tc .vmem S16x196x196 .f32) (harg6 : arg6.IsWhole)
    (x0 : Vec Ideal S1x16x192x192 .f32) (x1 : Vec Ideal S1x192x192 .i32) (x2 : Vec Ideal S25x25 .f32)
    (hr : ∀ p, (x1 p).toNat < 25) :
    out0_A_3 (F := Ideal) c i arg2 harg2 arg3 harg3 arg4 harg4 arg5 harg5 arg6 harg6 x0 x1 x2 = outBlk x0 x1 x2 := by
  unfold out0_A_3
  rw [View.read_writes_eq_canon _ _ _ (cover0_A_3 c i arg2 harg2 arg3 harg3 arg4 harg4 arg5 harg5 arg6 harg6 x0 x1 x2)]
  funext y
  refine View.canon_apply_of_pieces (outBlk x0 x1 x2) _ ?_ y (cover0_A_3 c i arg2 harg2 arg3 harg3 arg4 harg4 arg5 harg5 arg6 harg6 x0 x1 x2 y)
  rw [body_stores]
  exact stores_block c i arg2 harg2 arg3 harg3 arg4 harg4 arg5 harg5 arg6 harg6 x0 x1 x2 hr 24 (le_refl _)

end Cert.KernelIdeal.Block

end
-- ==== Proof.KernelArray.lean ====
/-
  From the blocks to the array. A grid point is an image b and a tile of sixteen channels; its output block is rows and
  columns uncut. The point's image block is the image at (b, 16 tile + ch), its filter numbers the image's, its bank the
  whole bank with each filter's 25 entries in one row. So the block function of a point's input blocks is the
  specification read through the point's output block, the 48 blocks tile the result array, and the array after the run
  is the specification of the argument arrays.
-/
import proofs.«427401_j73057393705079_3_alg».proof.Proof.Gen.KernelIdeal.Value
import proofs.«427401_j73057393705079_3_alg».proof.Proof.KernelBlockValue
import Idealize.ShloMosaic.PureOps.Ideal.Laws
import Idealize.ShloMosaic.Lib.StableHlo.Run

set_option maxRecDepth 16384

noncomputable section

namespace Cert.KernelIdeal.Arr

open Cert.KernelIdeal Cert.KernelIdeal.Gen Cert.KernelIdeal.Block Cert.ConvSpec
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-- A point's three input blocks, at their literal types. -/
abbrev xblk (c : Dev nD) (t : Fin cfg0.N) : Vec Ideal S1x16x192x192 .f32 := iblk m c 0 t
abbrev nblk (c : Dev nD) (t : Fin cfg0.N) : Vec Ideal S1x192x192 .i32 := iblk m c 1 t
abbrev bblk (c : Dev nD) (t : Fin cfg0.N) : Vec Ideal S25x25 .f32 := iblk m c 2 t

/-- The argument arrays on a core. -/
abbrev xarr (c : Dev nD) : SX.Idx → EReal := m ((c : Thread nD τ).loc main_arg0)
abbrev bankarr (c : Dev nD) : SB.Idx → EReal := m ((c : Thread nD τ).loc main_arg1)
abbrev narr (c : Dev nD) : SK.Idx → BitVec 32 := m ((c : Thread nD τ).loc main_arg2)

/-- The windows' block indices over the 48 points: the image and the output move together over (image, channel tile),
    the filter numbers with the image, the bank stays; rows and columns are never cut. -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = 0
    ∧ win0_3.index t (2 : Fin 4) = 0 ∧ win0_3.index t (3 : Fin 4) = 0
    ∧ win0_1.index t (0 : Fin 3) = win0_3.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 4) < 8 ∧ win0_3.index t (1 : Fin 4) < 6 :=
  (by decide +kernel : ∀ t : Fin grid0.N, _)

/-- Every (image, channel tile) is some point's. -/
theorem idx_onto : ∀ (q0 : Fin 8) (q1 : Fin 6), ∃ t : Fin cfg0.N, win0_3.index t = ![q0.val, q1.val, 0, 0] :=
  (by decide +kernel : ∀ (q0 : Fin 8) (q1 : Fin 6), ∃ t : Fin grid0.N, win0_3.index t = ![q0.val, q1.val, 0, 0])

theorem padded_congr (x : SX.Idx → EReal) {b b' : Fin 8} {cc cc' : Fin 96} {r r' s s' : ℕ}
    (hb : b.val = b'.val) (hc : cc.val = cc'.val) (hr : r = r') (hs : s = s') : padded x b cc r s = padded x b' cc' r' s' := by
  obtain rfl : b = b' := Fin.ext hb
  obtain rfl : cc = cc' := Fin.ext hc
  subst hr; subst hs; rfl

/-- A point's padded plane of channel `ch` is the padded image at the point's image and the tile's channel. -/
theorem padAt_xblk (c : Dev nD) (t : Fin cfg0.N) (ch : Fin 16) (r s : ℕ) (b : Fin 8) (cc : Fin 96)
    (hb : b.val = win0_3.index t (0 : Fin 4)) (hcc : cc.val = win0_3.index t (1 : Fin 4) * 16 + ch.val) :
    padAt (xblk m c t) ch r s = padded (xarr m c) b cc r s := by
  obtain ⟨e0, e1, e2, e3, e4, e5, e6, e7, e8, e9, e10, e11, e12⟩ := idx_facts t
  unfold padAt padded
  by_cases h : (2 ≤ r ∧ r < 194) ∧ (2 ≤ s ∧ s < 194)
  · rw [dif_pos h, dif_pos h]
    show V m c main_arg0 (((cfg0.win 0).blk t).view.emb (ix4 (0 : Fin 1) ch ⟨r - 2, by omega⟩ ⟨s - 2, by omega⟩)) = _
    rw [V_main_arg0]
    refine congrArg _ (funext fun a => Fin.ext ?_)
    match a with
    | ⟨0, _⟩ => show win0_0.index t (0 : Fin 4) * 1 + 1 * 0 = b.val; omega
    | ⟨1, _⟩ => show win0_0.index t (1 : Fin 4) * 16 + 1 * ch.val = cc.val; omega
    | ⟨2, _⟩ => show win0_0.index t (2 : Fin 4) * 192 + 1 * (r - 2) = r - 2; omega
    | ⟨3, _⟩ => show win0_0.index t (3 : Fin 4) * 192 + 1 * (s - 2) = s - 2; omega
  · rw [dif_neg h, dif_neg h]
    exact Ideal.ofBits_zero_f32

/-- A point's filter numbers are its image's. -/
theorem nblk_apply (c : Dev nD) (t : Fin cfg0.N) (h w : Fin 192) (b : Fin 8) (hb : b.val = win0_3.index t (0 : Fin 4)) :
    nblk m c t (ix3 (0 : Fin 1) h w) = narr m c (ix3 b h w) := by
  obtain ⟨e0, e1, e2, e3, e4, e5, e6, e7, e8, e9, e10, e11, e12⟩ := idx_facts t
  show V m c main_arg2 (((cfg0.win 1).blk t).view.emb (ix3 (0 : Fin 1) h w)) = _
  rw [V_main_arg2]
  refine congrArg _ (funext fun a => Fin.ext ?_)
  match a with
  | ⟨0, _⟩ => show win0_1.index t (0 : Fin 3) * 1 + 1 * 0 = b.val; omega
  | ⟨1, _⟩ => show win0_1.index t (1 : Fin 3) * 192 + 1 * h.val = h.val; omega
  | ⟨2, _⟩ => show win0_1.index t (2 : Fin 3) * 192 + 1 * w.val = w.val; omega

/-- The kernel's bank operand is the bank with each filter's 5 × 5 entries laid in one row of 25. -/
theorem flat_bank (c : Dev nD) :
    (V m c main_v0 : S25x25.Idx → EReal) = shapeCast S25x25 (m ((c : Thread nD τ).loc main_arg1)) shapeCasts_S25x5x5_S25x25 := by
  dsimp only [V, hostOps0]
  after_results
  rfl

/-- Every point sees the whole flattened bank: column 5 i + j of row n is entry (i, j) of filter n. -/
theorem bblk_apply (c : Dev nD) (t : Fin cfg0.N) (n : Fin 25) (i j : Fin 5) :
    bblk m c t (ix2 n ⟨5 * i.val + j.val, by omega⟩) = bankarr m c (ix3 n i j) := by
  obtain ⟨e0, e1, e2, e3, e4, e5, e6, e7, e8, e9, e10, e11, e12⟩ := idx_facts t
  show V m c main_v0 (((cfg0.win 2).blk t).view.emb (ix2 n ⟨5 * i.val + j.val, by omega⟩)) = _
  rw [flat_bank]
  refine shapeCast_apply (s := S25x5x5) (t := S25x25) _ shapeCasts_S25x5x5_S25x25 _ (ix3 n i j) (by
    show (S25x5x5.rowMajor (ix3 n i j)).val = (S25x25.rowMajor (((cfg0.win 2).blk t).view.emb (ix2 n ⟨5 * i.val + j.val, by omega⟩))).val
    rw [Shape.rowMajor_val_three, Shape.rowMajor_val_two]
    show (n.val * 5 + i.val) * 5 + j.val = (win0_2.index t (0 : Fin 2) * 25 + 1 * n.val) * 25 + (win0_2.index t (1 : Fin 2) * 25 + 1 * (5 * i.val + j.val))
    omega)

/-- WHAT POINT t WRITES BACK is block t of the specification of the argument arrays. -/
theorem flushed_eq (c : Dev nD) (hr : ∀ p, (narr m c p).toNat < 25) (t : Fin cfg0.N) :
    (dats m 0 c).flushed 3 t = ((cfg0.win 3).blk t).view.read (Elt Ideal) (G (xarr m c) (bankarr m c) (narr m c)) := by
  obtain ⟨e0, e1, e2, e3, e4, e5, e6, e7, e8, e9, e10, e11, e12⟩ := idx_facts t
  rw [Cert.KernelIdeal.Value.flushed3_A]
  have hr1 : ∀ p, (nblk m c t p).toNat < 25 := fun p => by
    show (V m c main_arg2 (((cfg0.win 1).blk t).view.emb p)).toNat < 25
    rw [V_main_arg2]; exact hr _
  rw [out_block c (grid0.coords t) (ms0_0 t) (hs0_0 t) (ms0_1 t) (hs0_1 t) (ms0_2 t) (hs0_2 t) (ms0_3 t) (hs0_3 t) scM0_0 (Memref.isWhole_whole _)
    (xblk m c t) (nblk m c t) (bblk m c t) hr1]
  funext y
  have h0 : (y 0).val < 1 := (y 0).isLt
  have h1 : (y 1).val < 16 := (y 1).isLt
  have h2 : (y 2).val < 192 := (y 2).isLt
  have h3 : (y 3).val < 192 := (y 3).isLt
  show outAt (xblk m c t) (nblk m c t) (bblk m c t) ⟨(y 1).val, h1⟩ ⟨(y 2).val, h2⟩ ⟨(y 3).val, h3⟩
    = Gat (xarr m c) (bankarr m c) (narr m c)
        ⟨win0_3.index t (0 : Fin 4) * 1 + 1 * (y 0).val, by omega⟩ ⟨win0_3.index t (1 : Fin 4) * 16 + 1 * (y 1).val, by omega⟩
        ⟨win0_3.index t (2 : Fin 4) * 192 + 1 * (y 2).val, by omega⟩ ⟨win0_3.index t (3 : Fin 4) * 192 + 1 * (y 3).val, by omega⟩
  unfold outAt Gat
  have ha : (fun (i j : Fin 5) => padAt (xblk m c t) ⟨(y 1).val, h1⟩ ((y 2).val + i.val) ((y 3).val + j.val))
      = fun (i j : Fin 5) => padded (xarr m c)
          ⟨win0_3.index t (0 : Fin 4) * 1 + 1 * (y 0).val, by omega⟩ ⟨win0_3.index t (1 : Fin 4) * 16 + 1 * (y 1).val, by omega⟩
          (win0_3.index t (2 : Fin 4) * 192 + 1 * (y 2).val + i.val) (win0_3.index t (3 : Fin 4) * 192 + 1 * (y 3).val + j.val) := by
    funext i j
    rw [padAt_xblk m c t ⟨(y 1).val, h1⟩ _ _
      ⟨win0_3.index t (0 : Fin 4) * 1 + 1 * (y 0).val, by omega⟩ ⟨win0_3.index t (1 : Fin 4) * 16 + 1 * (y 1).val, by omega⟩
      (by show win0_3.index t (0 : Fin 4) * 1 + 1 * (y 0).val = win0_3.index t (0 : Fin 4); omega)
      (by show win0_3.index t (1 : Fin 4) * 16 + 1 * (y 1).val = win0_3.index t (1 : Fin 4) * 16 + (y 1).val; omega)]
    exact padded_congr _ rfl rfl (by omega) (by omega)
  have hn : nblk m c t (ix3 (0 : Fin 1) (⟨(y 2).val, h2⟩ : Fin 192) (⟨(y 3).val, h3⟩ : Fin 192))
      = narr m c (ix3 (⟨win0_3.index t (0 : Fin 4) * 1 + 1 * (y 0).val, by omega⟩ : Fin 8)
          (⟨win0_3.index t (2 : Fin 4) * 192 + 1 * (y 2).val, by omega⟩ : Fin 192) (⟨win0_3.index t (3 : Fin 4) * 192 + 1 * (y 3).val, by omega⟩ : Fin 192)) := by
    rw [nblk_apply m c t _ _ ⟨win0_3.index t (0 : Fin 4) * 1 + 1 * (y 0).val, by omega⟩
      (by show win0_3.index t (0 : Fin 4) * 1 + 1 * (y 0).val = win0_3.index t (0 : Fin 4); omega)]
    refine congrArg _ (funext fun a => Fin.ext ?_)
    match a with
    | ⟨0, _⟩ => rfl
    | ⟨1, _⟩ => show (y 2).val = win0_3.index t (2 : Fin 4) * 192 + 1 * (y 2).val; omega
    | ⟨2, _⟩ => show (y 3).val = win0_3.index t (3 : Fin 4) * 192 + 1 * (y 3).val; omega
  have hk : (fun (i j : Fin 5) => bblk m c t (ix2 (⟨min (nblk m c t (ix3 (0 : Fin 1) (⟨(y 2).val, h2⟩ : Fin 192) (⟨(y 3).val, h3⟩ : Fin 192))).toNat 24, by omega⟩ : Fin 25)
          (⟨5 * i.val + j.val, by omega⟩ : Fin 25)))
      = fun (i j : Fin 5) => bankarr m c (ix3 (⟨min (narr m c (ix3 (⟨win0_3.index t (0 : Fin 4) * 1 + 1 * (y 0).val, by omega⟩ : Fin 8)
          (⟨win0_3.index t (2 : Fin 4) * 192 + 1 * (y 2).val, by omega⟩ : Fin 192) (⟨win0_3.index t (3 : Fin 4) * 192 + 1 * (y 3).val, by omega⟩ : Fin 192))).toNat 24, by omega⟩ : Fin 25) i j) := by
    funext i j
    rw [bblk_apply m c t _ i j]
    refine congrArg _ (funext fun a => Fin.ext ?_)
    match a with
    | ⟨0, _⟩ => show min _ 24 = min _ 24; rw [hn]
    | ⟨1, _⟩ => rfl
    | ⟨2, _⟩ => rfl
  rw [ha, hk]

/-- An index of the array is in point t's block iff each coordinate is in the block's range on its axis. -/
theorem mem_blk (t : Fin cfg0.N) (i : S8x96x192x192.Idx) :
    i ∈ ((cfg0.win 3).blk t).view.set ↔ ∀ a : Fin 4, win0_3.index t a * S1x16x192x192.size a ≤ (i a).val ∧ (i a).val < win0_3.index t a * S1x16x192x192.size a + S1x16x192x192.size a := by
  show i ∈ ((View.whole main_v1).slice (win0_3.rect t)).set ↔ _
  rw [View.set_slice_whole, Rect.mem_set_unit]
  exact Iff.rfl

/-- Every index of the result array is in some point's block: image i₀ and channel tile i₁ / 16. -/
theorem covered (i : S8x96x192x192.Idx) : ∃ t : Fin cfg0.N, (cfg0.win 3).flush t = true ∧ i ∈ ((cfg0.win 3).blk t).view.set := by
  have hi0 : (i 0).val < 8 := (i 0).isLt
  have hi1 : (i 1).val < 96 := (i 1).isLt
  have hi2 : (i 2).val < 192 := (i 2).isLt
  have hi3 : (i 3).val < 192 := (i 3).isLt
  obtain ⟨t, ht⟩ := idx_onto ⟨(i 0).val, hi0⟩ ⟨(i 1).val / 16, by omega⟩
  have q0 : win0_3.index t (0 : Fin 4) = (i 0).val := congrFun ht 0
  have q1 : win0_3.index t (1 : Fin 4) = (i 1).val / 16 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 192 ≤ (i 2).val ∧ (i 2).val < win0_3.index t (2 : Fin 4) * 192 + 192; omega
  | ⟨3, _⟩ => show win0_3.index t (3 : Fin 4) * 192 ≤ (i 3).val ∧ (i 3).val < win0_3.index t (3 : Fin 4) * 192 + 192; omega

/-- THE RESULT ARRAY after the run is the specification of the argument arrays. -/
theorem final (c : Dev nD) (hr : ∀ p, (narr m c p).toNat < 25) :
    (dats m 0 c).arrAt 3 cfg0.N = G (xarr m c) (bankarr m c) (narr m c) :=
  (dats m 0 c).arrAt_eq_of_cover 3 (G (xarr m c) (bankarr m c) (narr m c)) (fun t _ => flushed_eq m c hr t) covered

/-- The kernel's run with its result named: the specification of the arguments, the arguments unchanged. -/
theorem run (ρ : Dev nD → PrngReg) (hr : ∀ c p, (narr m c p).toNat < 25) :
    θ_run defs (onTc (τ := τ) (main (F := Ideal))) ⟨m, fun _ => 0, ρ⟩ fun r => ∀ c : Dev nD,
      r.2.mem ((c : Thread nD τ).loc main_v1) = G (xarr m c) (bankarr m c) (narr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hr c)), (h c).2⟩)
    (Cert.KernelIdeal.Value.run_blocks m ρ)

end Cert.KernelIdeal.Arr

end
-- ==== Proof.RefValue.lean ====
/-
  The reference's result is the specification: at (b, c, h, w) the 25 products of the zero-padded image at
  (b, c, h + i, w + j) with entry (i, j) of the filter gathered for pixel (b, h, w), added to zero in row-major order
  of the taps. The pad reads the image inside and zero on the border; the gather reads the bank at the filter number,
  which, below 25 and not negative, is neither wrapped nor capped.
-/
import proofs.«427401_j73057393705079_3_alg».proof.Proof.RefRead
import proofs.«427401_j73057393705079_3_alg».proof.Proof.ConvSpec
import Idealize.ShloMosaic.PureOps.Ideal.Laws
import Idealize.ShloMosaic.Lib.ValueIdx
import Idealize.ShloMosaic.Lib.ValueLayout
import Idealize.ShloMosaic.Lib.KernelVsHost
import Idealize.ShloMosaic.Lib.Pipeline.Value

noncomputable section

namespace Cert.ReferenceIdeal.RefValue

open Cert.ReferenceIdeal Cert.ReferenceIdeal.Gen Cert.ReferenceIdeal.ReadP Idealize.ShloMosaic Idealize.ShloMosaic.ValueIdx

/-! ## Three operations read at an index, over the literal shapes -/

/-- The pad at an index. -/
theorem pad_ix4 (x : (⟨4, ![8, 96, 192, 192]⟩ : Shape).Idx → EReal) {u : Shape} (v : u.Idx → EReal)
    (hu : 0 < u.numel) (hv : v (Shape.Idx.first hu) = 0)
    (h : (⟨4, ![8, 96, 192, 192]⟩ : Shape).Pads (![0, 0, 2, 2] : Fin 4 → Nat) ![0, 0, 2, 2] ![0, 0, 0, 0]
      ⟨4, ![8, 96, 196, 196]⟩)
    (b : Fin 8) (c : Fin 96) (r s : Fin 196) :
    pad ⟨4, ![8, 96, 196, 196]⟩ ![0, 0, 2, 2] ![0, 0, 2, 2] ![0, 0, 0, 0] x v h hu (ix4 b c r s)
      = Cert.ConvSpec.padded x b c r.val s.val := by
  unfold Cert.ConvSpec.padded
  by_cases hc : (2 ≤ r.val ∧ r.val < 194) ∧ (2 ≤ s.val ∧ s.val < 194)
  · rw [dif_pos hc]
    exact pad_apply_of_inside _ _ _ x v h hu _ (ix4 b c ⟨r.val - 2, by omega⟩ ⟨s.val - 2, by omega⟩) (fun a =>
      match a with
      | ⟨0, _⟩ => by show b.val = 0 + b.val * (0 + 1); omega
      | ⟨1, _⟩ => by show c.val = 0 + c.val * (0 + 1); omega
      | ⟨2, _⟩ => by show r.val = 2 + (r.val - 2) * (0 + 1); omega
      | ⟨3, _⟩ => by show s.val = 2 + (s.val - 2) * (0 + 1); omega)
  · rw [dif_neg hc, ← hv]
    by_cases hr : 2 ≤ r.val ∧ r.val < 194
    · have hs : ¬(2 ≤ s.val ∧ s.val < 194) := fun hs => hc ⟨hr, hs⟩
      exact pad_apply_of_not_inside _ _ _ x v h hu _ (3 : Fin 4) (by
        intro hin
        have h1 : 2 ≤ s.val := hin.1
        have h2 : (s.val - 2) / 1 < 192 := hin.2.2
        omega)
    · exact pad_apply_of_not_inside _ _ _ x v h hu _ (2 : Fin 4) (by
        intro hin
        have h1 : 2 ≤ r.val := hin.1
        have h2 : (r.val - 2) / 1 < 192 := hin.2.2
        omega)

/-- The dimension numbers of the filter gather: operand [25, 5, 5], start indices [8, 192, 192, 1], result
    [8, 192, 192, 5, 5]; the first operand axis is collapsed and indexed, the last two are the offset axes. -/
abbrev bankDims (wf : GatherDims.WF ⟨3, ![25, 5, 5]⟩ ⟨4, ![8, 192, 192, 1]⟩ ⟨5, ![8, 192, 192, 5, 5]⟩ [3, 4] [0] [] [0] [] 3
    ![1, 5, 5]) : GatherDims ⟨3, ![25, 5, 5]⟩ ⟨4, ![8, 192, 192, 1]⟩ ⟨5, ![8, 192, 192, 5, 5]⟩ where
  offsetDims := [3, 4]
  collapsedSliceDims := [0]
  operandBatchingDims := []
  startIndicesBatchingDims := []
  startIndexMap := [0]
  indexVectorDim := 3
  sliceSizes := ![1, 5, 5]
  wf := wf

/-- The gather at (b, h, w, i, j): entry (i, j) of the filter whose number is the start index at (b, h, w, 0), read
    signed and clamped into [0, 24]. -/
theorem gather_bank_apply {α : Type} {w : Nat}
    (wf : GatherDims.WF ⟨3, ![25, 5, 5]⟩ ⟨4, ![8, 192, 192, 1]⟩ ⟨5, ![8, 192, 192, 5, 5]⟩ [3, 4] [0] [] [0] [] 3 ![1, 5, 5])
    (x : (⟨3, ![25, 5, 5]⟩ : Shape).Idx → α) (idx : IVec ⟨4, ![8, 192, 192, 1]⟩ w)
    (b : Fin 8) (h v : Fin 192) (i j : Fin 5) :
    Host.gather (bankDims wf) x idx (ix5 b h v i j)
      = x (ix3 ⟨min (idx (ix4 b h v (0 : Fin 1))).toInt.toNat 24, by omega⟩ i j) := by
  unfold Host.gather
  refine congrArg x (funext fun a => Fin.ext ?_)
  match a with
  | ⟨0, _⟩ =>
    show (bankDims wf).start (ix5 b h v i j) idx 0 + (bankDims wf).batchCoord (ix5 b h v i j) 0
      + (bankDims wf).offCoord (ix5 b h v i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (bankDims wf).startIndexMap from List.mem_singleton.mpr rfl)]
    have hsi : (bankDims wf).siIdx (ix5 b h v i j) ⟨List.idxOf (0 : Fin 3) (bankDims wf).startIndexMap,
        List.idxOf_lt_length_iff.2 (List.mem_singleton.mpr rfl)⟩ = ix4 b h v (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show (bankDims wf).start (ix5 b h v i j) idx 1 + (bankDims wf).batchCoord (ix5 b h v i j) 1
      + (bankDims wf).offCoord (ix5 b h v i j) 1 = i.val
    rw [GatherDims.batchCoord_eq_zero _ _ _ List.not_mem_nil]
    have hst : (bankDims wf).start (ix5 b h v i j) idx 1 = 0 := by
      unfold GatherDims.start
      rw [dif_neg (show ¬((_ : Fin 3) ∈ ([0] : List (Fin 3))) from by decide)]
    have hoff : (bankDims wf).offCoord (ix5 b h v i j) 1 = i.val := by
      unfold GatherDims.offCoord
      rw [dif_pos ((GatherDims.mem_sKept _ _).mpr ⟨show ¬((_ : Fin 3) ∈ ([0] : List (Fin 3))) from by decide, List.not_mem_nil⟩)]
      rfl
    rw [hst, hoff]; omega
  | ⟨2, _⟩ =>
    show (bankDims wf).start (ix5 b h v i j) idx 2 + (bankDims wf).batchCoord (ix5 b h v i j) 2
      + (bankDims wf).offCoord (ix5 b h v i j) 2 = j.val
    rw [GatherDims.batchCoord_eq_zero _ _ _ List.not_mem_nil]
    have hst : (bankDims wf).start (ix5 b h v i j) idx 2 = 0 := by
      unfold GatherDims.start
      rw [dif_neg (show ¬((_ : Fin 3) ∈ ([0] : List (Fin 3))) from by decide)]
    have hoff : (bankDims wf).offCoord (ix5 b h v i j) 2 = j.val := by
      unfold GatherDims.offCoord
      rw [dif_pos ((GatherDims.mem_sKept _ _).mpr ⟨show ¬((_ : Fin 3) ∈ ([0] : List (Fin 3))) from by decide, List.not_mem_nil⟩)]
      rfl
    rw [hst, hoff]; omega

/-- One tap, read at (b, c, h, w): the slice of the padded image at offsets (di, dj) of its last two axes, times the
    entry (di, dj) of the gathered filters — sliced, reshaped to [8, 192, 192] and broadcast over the channels — is the
    padded image at (b, c, h + di, w + dj) times the gathered filter of pixel (b, h, w) at (di, dj). -/
theorem tap_apply
    (P : (⟨4, ![8, 96, 196, 196]⟩ : Shape).Idx → EReal) (K : (⟨5, ![8, 192, 192, 5, 5]⟩ : Shape).Idx → EReal)
    (di dj : Nat) (hdi : di < 5) (hdj : dj < 5)
    (hs : (⟨4, ![8, 96, 196, 196]⟩ : Shape).Slices ![0, 0, di, dj] ⟨4, ![8, 96, 192, 192]⟩)
    (hk : (⟨5, ![8, 192, 192, 5, 5]⟩ : Shape).Slices ![0, 0, 0, di, dj] ⟨5, ![8, 192, 192, 1, 1]⟩)
    (hc : (⟨5, ![8, 192, 192, 1, 1]⟩ : Shape).ShapeCasts ⟨3, ![8, 192, 192]⟩)
    (hb1 : (⟨3, ![8, 192, 192]⟩ : Shape).BroadcastsInDim ⟨4, ![8, 1, 192, 192]⟩ (![0, 2, 3] : Fin 3 → Fin 4))
    (hb2 : (⟨4, ![8, 1, 192, 192]⟩ : Shape).BroadcastsInDim ⟨4, ![8, 96, 192, 192]⟩ (![0, 1, 2, 3] : Fin 4 → Fin 4))
    (b : Fin 8) (c : Fin 96) (h w : Fin 192) :
    mulf (F := Ideal) (φ := .f32) (extractStridedSlice ⟨4, ![8, 96, 192, 192]⟩ ![0, 0, di, dj] P hs)
      (broadcastInDim ⟨4, ![8, 96, 192, 192]⟩ ![0, 1, 2, 3] hb2
        (broadcastInDim ⟨4, ![8, 1, 192, 192]⟩ ![0, 2, 3] hb1
          (shapeCast ⟨3, ![8, 192, 192]⟩ (extractStridedSlice ⟨5, ![8, 192, 192, 1, 1]⟩ ![0, 0, 0, di, dj] K hk) hc)))
      (ix4 b c h w)
    = P (ix4 b c ⟨h.val + di, by omega⟩ ⟨w.val + dj, by omega⟩) * K (ix5 b h w ⟨di, hdi⟩ ⟨dj, hdj⟩) := by
  have e1 : extractStridedSlice ⟨4, ![8, 96, 192, 192]⟩ ![0, 0, di, dj] P hs (ix4 b c h w)
      = P (ix4 b c ⟨h.val + di, by omega⟩ ⟨w.val + dj, by omega⟩) :=
    extractStridedSlice_apply _ P hs _ _ (fun a => match a with
      | ⟨0, _⟩ => by show b.val = 0 + b.val; omega
      | ⟨1, _⟩ => by show c.val = 0 + c.val; omega
      | ⟨2, _⟩ => by show h.val + di = di + h.val; omega
      | ⟨3, _⟩ => by show w.val + dj = dj + w.val; omega)
  have e2 : broadcastInDim ⟨4, ![8, 96, 192, 192]⟩ ![0, 1, 2, 3] hb2
        (broadcastInDim ⟨4, ![8, 1, 192, 192]⟩ ![0, 2, 3] hb1
          (shapeCast ⟨3, ![8, 192, 192]⟩ (extractStridedSlice ⟨5, ![8, 192, 192, 1, 1]⟩ ![0, 0, 0, di, dj] K hk) hc))
        (ix4 b c h w) = K (ix5 b h w ⟨di, hdi⟩ ⟨dj, hdj⟩) := by
    refine (broadcastInDim_apply _ hb2 _ (ix4 b c h w) (ix4 b (0 : Fin 1) h w) (fun a => match a with
      | ⟨0, _⟩ => by show b.val = if (8 : Nat) = 1 then 0 else b.val; rw [if_neg (by decide)]
      | ⟨1, _⟩ => by show 0 = if (1 : Nat) = 1 then 0 else c.val; rw [if_pos rfl]
      | ⟨2, _⟩ => by show h.val = if (192 : Nat) = 1 then 0 else h.val; rw [if_neg (by decide)]
      | ⟨3, _⟩ => by show w.val = if (192 : Nat) = 1 then 0 else w.val; rw [if_neg (by decide)])).trans ?_
    refine (broadcastInDim_apply _ hb1 _ (ix4 b (0 : Fin 1) h w) (ix3 b h w) (fun a => match a with
      | ⟨0, _⟩ => by show b.val = if (8 : Nat) = 1 then 0 else b.val; rw [if_neg (by decide)]
      | ⟨1, _⟩ => by show h.val = if (192 : Nat) = 1 then 0 else h.val; rw [if_neg (by decide)]
      | ⟨2, _⟩ => by show w.val = if (192 : Nat) = 1 then 0 else w.val; rw [if_neg (by decide)])).trans ?_
    refine (shapeCast_apply _ hc (ix3 b h w) (ix5 b h w (0 : Fin 1) (0 : Fin 1)) (by
      rw [Shape.rowMajor_val_five, Shape.rowMajor_val_three]
      show (((b.val * 192 + h.val) * 192 + w.val) * 1 + 0) * 1 + 0 = (b.val * 192 + h.val) * 192 + w.val
      omega)).trans ?_
    exact extractStridedSlice_apply _ K hk _ _ (fun a => match a with
      | ⟨0, _⟩ => by show b.val = 0 + b.val; omega
      | ⟨1, _⟩ => by show h.val = 0 + h.val; omega
      | ⟨2, _⟩ => by show w.val = 0 + w.val; omega
      | ⟨3, _⟩ => by show di = di + 0; omega
      | ⟨4, _⟩ => by show dj = dj + 0; omega)
  show extractStridedSlice ⟨4, ![8, 96, 192, 192]⟩ ![0, 0, di, dj] P hs (ix4 b c h w) * _ = _
  rw [e1, e2]

/-- A 32-bit word below 25 read signed is the number it is read as unsigned. -/
theorem toInt_of_lt (x : BitVec 32) (hx : x.toNat < 25) : x.toInt = (x.toNat : Int) := by
  rw [BitVec.toInt_eq_toNat_cond, if_pos (by omega)]

/-- So its signed reading, as a natural number, is the unsigned one. -/
theorem toInt_toNat_of_lt (x : BitVec 32) (hx : x.toNat < 25) : x.toInt.toNat = x.toNat := by
  rw [toInt_of_lt x hx]; exact Int.toNat_natCast _

/-- A word below 25 is not negative, so the select that would add 25 to a negative filter number keeps it. -/
theorem select_keep (x : BitVec 32) (hx : x.toNat < 25) :
    Scalar.select (IntOp.cmpi .slt x 0#32) (IntOp.addi x 25#32) x = x := by
  have h0 : IntOp.cmpi .slt x 0#32 = 0#1 := by
    show BitVec.ofBool (x.slt 0#32) = 0#1
    have hs : x.slt 0#32 = false := by
      show decide (x.toInt < (0#32).toInt) = false
      rw [toInt_of_lt x hx, BitVec.toInt_zero]
      exact decide_eq_false (by omega)
    rw [hs]; rfl
  rw [h0]; exact select_zero _ _

/-- The padding value: the integer 0 converted is the extended real 0. -/
theorem sitofp_zero : FloatOps.sitofp (F := Ideal) .f32 (0#32) = (0 : EReal) := by
  show (((0#32 : BitVec 32).toInt : ℝ) : EReal) = 0
  rw [BitVec.toInt_zero]; simp

/-! ## The reference's two hand-read operations, and the filter numbers -/

/-- The padded image at (b, c, r, s): the image at (r − 2, s − 2) inside, zero on the border. -/
theorem v0_apply (x0 : FVec Ideal S8x96x192x192 .f32) (b : Fin 8) (c : Fin 96) (r s : Fin 196) :
    val_main_v0 (F := Ideal) x0 (ix4 b c r s) = Cert.ConvSpec.padded x0 b c r.val s.val :=
  pad_ix4 x0 (val_main_call0_v0 (F := Ideal)) Facts₀.h_S_ sitofp_zero
    Facts₀.pads_S8x96x192x192_S8x96x196x196_000_000_220_220 b c r s

/-- The start indices of the gather at (b, h, w, 0): the filter number of pixel (b, h, w), which, not negative, the
    select keeps. -/
theorem v6_apply (x2 : IVec S8x192x192 32) (hr : ∀ p : S8x192x192.Idx, (x2 p).toNat < 25) (b : Fin 8) (h w : Fin 192) :
    val_main_v6 (F := Ideal) x2 (ix4 b h w (0 : Fin 1)) = x2 (ix3 b h w) := by
  have e : idx_main_v6 (ix4 b h w (0 : Fin 1)) = ix3 b h w :=
    funext fun a => Fin.ext (by match a with | ⟨0, _⟩ => rfl | ⟨1, _⟩ => rfl | ⟨2, _⟩ => rfl)
  rw [val_main_v6_apply, e]
  show Scalar.select (IntOp.cmpi .slt (x2 (ix3 b h w)) (val_main_v1 (F := Ideal) (ix3 b h w)))
    (IntOp.addi (x2 (ix3 b h w)) (val_main_v3 (F := Ideal) (ix3 b h w))) (x2 (ix3 b h w)) = _
  rw [val_main_v1_apply, val_main_v3_apply]
  exact select_keep _ (hr _)

/-- The gathered filters at (b, h, w, i, j): entry (i, j) of the filter pixel (b, h, w) names, capped at 24. -/
theorem v7_apply (x1 : FVec Ideal S25x5x5 .f32) (x2 : IVec S8x192x192 32) (hr : ∀ p : S8x192x192.Idx, (x2 p).toNat < 25)
    (b : Fin 8) (h w : Fin 192) (i j : Fin 5) :
    val_main_v7 (F := Ideal) x1 x2 (ix5 b h w i j)
      = x1 (ix3 ⟨min (x2 (ix3 b h w)).toNat 24, by omega⟩ i j) := by
  have key : (val_main_v6 (F := Ideal) x2 (ix4 b h w (0 : Fin 1))).toInt.toNat = (x2 (ix3 b h w)).toNat := by
    rw [v6_apply x2 hr]; exact toInt_toNat_of_lt _ (hr _)
  refine (gather_bank_apply Facts₀.gather_S25x5x5_S8x192x192x1_S8x192x192x5x5_34_0_n_n_0_3_155_wf x1
    (val_main_v6 (F := Ideal) x2) b h w i j).trans ?_
  refine congrArg x1 (congrArg (fun t => ix3 t i j) (Fin.ext ?_))
  show min _ 24 = min _ 24
  rw [key]

/-- A product of the padded image and the gathered filters, read through the two lemmas above. -/
theorem tap_val (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) (di dj : Nat) (hdi : di < 5) (hdj : dj < 5) :
    val_main_v0 (F := Ideal) x0 (ix4 b c ⟨h.val + di, by omega⟩ ⟨w.val + dj, by omega⟩)
        * val_main_v7 (F := Ideal) x1 x2 (ix5 b h w ⟨di, hdi⟩ ⟨dj, hdj⟩)
      = Cert.ConvSpec.padded x0 b c (h.val + di) (w.val + dj)
        * x1 (ix3 ⟨min (x2 (ix3 b h w)).toNat 24, by omega⟩ ⟨di, hdi⟩ ⟨dj, hdj⟩) := by
  rw [v0_apply, v7_apply x1 x2 hr]

/-! ## The 25 taps: each product at (b, c, h, w) -/

theorem tap_0_0 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v14 (F := Ideal) x0 x1 x2 (ix4 b c h w)
      = Cert.ConvSpec.padded x0 b c (h.val + 0) (w.val + 0)
        * x1 (ix3 ⟨min (x2 (ix3 b h w)).toNat 24, by omega⟩ ⟨0, by omega⟩ ⟨0, by omega⟩) :=
  (tap_apply (val_main_v0 (F := Ideal) x0) (val_main_v7 (F := Ideal) x1 x2) 0 0 (by omega) (by omega)
    Facts₀.slices_S8x96x196x196_S8x96x192x192_0_0_0_0 Facts₀.slices_S8x192x192x5x5_S8x192x192x1x1_0_0_0_0_0
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 0 0 _ _)

theorem tap_0_1 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v21 (F := Ideal) x0 x1 x2 (ix4 b c h w)
      = Cert.ConvSpec.padded x0 b c (h.val + 0) (w.val + 1)
        * x1 (ix3 ⟨min (x2 (ix3 b h w)).toNat 24, by omega⟩ ⟨0, by omega⟩ ⟨1, by omega⟩) :=
  (tap_apply (val_main_v0 (F := Ideal) x0) (val_main_v7 (F := Ideal) x1 x2) 0 1 (by omega) (by omega)
    Facts₀.slices_S8x96x196x196_S8x96x192x192_0_0_0_1 Facts₀.slices_S8x192x192x5x5_S8x192x192x1x1_0_0_0_0_1
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 0 1 _ _)

theorem tap_0_2 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v28 (F := Ideal) x0 x1 x2 (ix4 b c h w)
      = Cert.ConvSpec.padded x0 b c (h.val + 0) (w.val + 2)
        * x1 (ix3 ⟨min (x2 (ix3 b h w)).toNat 24, by omega⟩ ⟨0, by omega⟩ ⟨2, by omega⟩) :=
  (tap_apply (val_main_v0 (F := Ideal) x0) (val_main_v7 (F := Ideal) x1 x2) 0 2 (by omega) (by omega)
    Facts₀.slices_S8x96x196x196_S8x96x192x192_0_0_0_2 Facts₀.slices_S8x192x192x5x5_S8x192x192x1x1_0_0_0_0_2
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 0 2 _ _)

theorem tap_0_3 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v35 (F := Ideal) x0 x1 x2 (ix4 b c h w)
      = Cert.ConvSpec.padded x0 b c (h.val + 0) (w.val + 3)
        * x1 (ix3 ⟨min (x2 (ix3 b h w)).toNat 24, by omega⟩ ⟨0, by omega⟩ ⟨3, by omega⟩) :=
  (tap_apply (val_main_v0 (F := Ideal) x0) (val_main_v7 (F := Ideal) x1 x2) 0 3 (by omega) (by omega)
    Facts₀.slices_S8x96x196x196_S8x96x192x192_0_0_0_3 Facts₀.slices_S8x192x192x5x5_S8x192x192x1x1_0_0_0_0_3
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 0 3 _ _)

theorem tap_0_4 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v42 (F := Ideal) x0 x1 x2 (ix4 b c h w)
      = Cert.ConvSpec.padded x0 b c (h.val + 0) (w.val + 4)
        * x1 (ix3 ⟨min (x2 (ix3 b h w)).toNat 24, by omega⟩ ⟨0, by omega⟩ ⟨4, by omega⟩) :=
  (tap_apply (val_main_v0 (F := Ideal) x0) (val_main_v7 (F := Ideal) x1 x2) 0 4 (by omega) (by omega)
    Facts₀.slices_S8x96x196x196_S8x96x192x192_0_0_0_4 Facts₀.slices_S8x192x192x5x5_S8x192x192x1x1_0_0_0_0_4
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 0 4 _ _)

theorem tap_1_0 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v49 (F := Ideal) x0 x1 x2 (ix4 b c h w)
      = Cert.ConvSpec.padded x0 b c (h.val + 1) (w.val + 0)
        * x1 (ix3 ⟨min (x2 (ix3 b h w)).toNat 24, by omega⟩ ⟨1, by omega⟩ ⟨0, by omega⟩) :=
  (tap_apply (val_main_v0 (F := Ideal) x0) (val_main_v7 (F := Ideal) x1 x2) 1 0 (by omega) (by omega)
    Facts₀.slices_S8x96x196x196_S8x96x192x192_0_0_1_0 Facts₀.slices_S8x192x192x5x5_S8x192x192x1x1_0_0_0_1_0
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 1 0 _ _)

theorem tap_1_1 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v56 (F := Ideal) x0 x1 x2 (ix4 b c h w)
      = Cert.ConvSpec.padded x0 b c (h.val + 1) (w.val + 1)
        * x1 (ix3 ⟨min (x2 (ix3 b h w)).toNat 24, by omega⟩ ⟨1, by omega⟩ ⟨1, by omega⟩) :=
  (tap_apply (val_main_v0 (F := Ideal) x0) (val_main_v7 (F := Ideal) x1 x2) 1 1 (by omega) (by omega)
    Facts₀.slices_S8x96x196x196_S8x96x192x192_0_0_1_1 Facts₀.slices_S8x192x192x5x5_S8x192x192x1x1_0_0_0_1_1
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 1 1 _ _)

theorem tap_1_2 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v63 (F := Ideal) x0 x1 x2 (ix4 b c h w)
      = Cert.ConvSpec.padded x0 b c (h.val + 1) (w.val + 2)
        * x1 (ix3 ⟨min (x2 (ix3 b h w)).toNat 24, by omega⟩ ⟨1, by omega⟩ ⟨2, by omega⟩) :=
  (tap_apply (val_main_v0 (F := Ideal) x0) (val_main_v7 (F := Ideal) x1 x2) 1 2 (by omega) (by omega)
    Facts₀.slices_S8x96x196x196_S8x96x192x192_0_0_1_2 Facts₀.slices_S8x192x192x5x5_S8x192x192x1x1_0_0_0_1_2
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 1 2 _ _)

theorem tap_1_3 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v70 (F := Ideal) x0 x1 x2 (ix4 b c h w)
      = Cert.ConvSpec.padded x0 b c (h.val + 1) (w.val + 3)
        * x1 (ix3 ⟨min (x2 (ix3 b h w)).toNat 24, by omega⟩ ⟨1, by omega⟩ ⟨3, by omega⟩) :=
  (tap_apply (val_main_v0 (F := Ideal) x0) (val_main_v7 (F := Ideal) x1 x2) 1 3 (by omega) (by omega)
    Facts₀.slices_S8x96x196x196_S8x96x192x192_0_0_1_3 Facts₀.slices_S8x192x192x5x5_S8x192x192x1x1_0_0_0_1_3
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 1 3 _ _)

theorem tap_1_4 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v77 (F := Ideal) x0 x1 x2 (ix4 b c h w)
      = Cert.ConvSpec.padded x0 b c (h.val + 1) (w.val + 4)
        * x1 (ix3 ⟨min (x2 (ix3 b h w)).toNat 24, by omega⟩ ⟨1, by omega⟩ ⟨4, by omega⟩) :=
  (tap_apply (val_main_v0 (F := Ideal) x0) (val_main_v7 (F := Ideal) x1 x2) 1 4 (by omega) (by omega)
    Facts₀.slices_S8x96x196x196_S8x96x192x192_0_0_1_4 Facts₀.slices_S8x192x192x5x5_S8x192x192x1x1_0_0_0_1_4
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 1 4 _ _)

theorem tap_2_0 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v84 (F := Ideal) x0 x1 x2 (ix4 b c h w)
      = Cert.ConvSpec.padded x0 b c (h.val + 2) (w.val + 0)
        * x1 (ix3 ⟨min (x2 (ix3 b h w)).toNat 24, by omega⟩ ⟨2, by omega⟩ ⟨0, by omega⟩) :=
  (tap_apply (val_main_v0 (F := Ideal) x0) (val_main_v7 (F := Ideal) x1 x2) 2 0 (by omega) (by omega)
    Facts₀.slices_S8x96x196x196_S8x96x192x192_0_0_2_0 Facts₀.slices_S8x192x192x5x5_S8x192x192x1x1_0_0_0_2_0
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 2 0 _ _)

theorem tap_2_1 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v91 (F := Ideal) x0 x1 x2 (ix4 b c h w)
      = Cert.ConvSpec.padded x0 b c (h.val + 2) (w.val + 1)
        * x1 (ix3 ⟨min (x2 (ix3 b h w)).toNat 24, by omega⟩ ⟨2, by omega⟩ ⟨1, by omega⟩) :=
  (tap_apply (val_main_v0 (F := Ideal) x0) (val_main_v7 (F := Ideal) x1 x2) 2 1 (by omega) (by omega)
    Facts₀.slices_S8x96x196x196_S8x96x192x192_0_0_2_1 Facts₀.slices_S8x192x192x5x5_S8x192x192x1x1_0_0_0_2_1
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 2 1 _ _)

theorem tap_2_2 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v98 (F := Ideal) x0 x1 x2 (ix4 b c h w)
      = Cert.ConvSpec.padded x0 b c (h.val + 2) (w.val + 2)
        * x1 (ix3 ⟨min (x2 (ix3 b h w)).toNat 24, by omega⟩ ⟨2, by omega⟩ ⟨2, by omega⟩) :=
  (tap_apply (val_main_v0 (F := Ideal) x0) (val_main_v7 (F := Ideal) x1 x2) 2 2 (by omega) (by omega)
    Facts₀.slices_S8x96x196x196_S8x96x192x192_0_0_2_2 Facts₀.slices_S8x192x192x5x5_S8x192x192x1x1_0_0_0_2_2
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 2 2 _ _)

theorem tap_2_3 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v105 (F := Ideal) x0 x1 x2 (ix4 b c h w)
      = Cert.ConvSpec.padded x0 b c (h.val + 2) (w.val + 3)
        * x1 (ix3 ⟨min (x2 (ix3 b h w)).toNat 24, by omega⟩ ⟨2, by omega⟩ ⟨3, by omega⟩) :=
  (tap_apply (val_main_v0 (F := Ideal) x0) (val_main_v7 (F := Ideal) x1 x2) 2 3 (by omega) (by omega)
    Facts₀.slices_S8x96x196x196_S8x96x192x192_0_0_2_3 Facts₀.slices_S8x192x192x5x5_S8x192x192x1x1_0_0_0_2_3
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 2 3 _ _)

theorem tap_2_4 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v112 (F := Ideal) x0 x1 x2 (ix4 b c h w)
      = Cert.ConvSpec.padded x0 b c (h.val + 2) (w.val + 4)
        * x1 (ix3 ⟨min (x2 (ix3 b h w)).toNat 24, by omega⟩ ⟨2, by omega⟩ ⟨4, by omega⟩) :=
  (tap_apply (val_main_v0 (F := Ideal) x0) (val_main_v7 (F := Ideal) x1 x2) 2 4 (by omega) (by omega)
    Facts₀.slices_S8x96x196x196_S8x96x192x192_0_0_2_4 Facts₀.slices_S8x192x192x5x5_S8x192x192x1x1_0_0_0_2_4
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 2 4 _ _)

theorem tap_3_0 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v119 (F := Ideal) x0 x1 x2 (ix4 b c h w)
      = Cert.ConvSpec.padded x0 b c (h.val + 3) (w.val + 0)
        * x1 (ix3 ⟨min (x2 (ix3 b h w)).toNat 24, by omega⟩ ⟨3, by omega⟩ ⟨0, by omega⟩) :=
  (tap_apply (val_main_v0 (F := Ideal) x0) (val_main_v7 (F := Ideal) x1 x2) 3 0 (by omega) (by omega)
    Facts₀.slices_S8x96x196x196_S8x96x192x192_0_0_3_0 Facts₀.slices_S8x192x192x5x5_S8x192x192x1x1_0_0_0_3_0
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 3 0 _ _)

theorem tap_3_1 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v126 (F := Ideal) x0 x1 x2 (ix4 b c h w)
      = Cert.ConvSpec.padded x0 b c (h.val + 3) (w.val + 1)
        * x1 (ix3 ⟨min (x2 (ix3 b h w)).toNat 24, by omega⟩ ⟨3, by omega⟩ ⟨1, by omega⟩) :=
  (tap_apply (val_main_v0 (F := Ideal) x0) (val_main_v7 (F := Ideal) x1 x2) 3 1 (by omega) (by omega)
    Facts₀.slices_S8x96x196x196_S8x96x192x192_0_0_3_1 Facts₀.slices_S8x192x192x5x5_S8x192x192x1x1_0_0_0_3_1
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 3 1 _ _)

theorem tap_3_2 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v133 (F := Ideal) x0 x1 x2 (ix4 b c h w)
      = Cert.ConvSpec.padded x0 b c (h.val + 3) (w.val + 2)
        * x1 (ix3 ⟨min (x2 (ix3 b h w)).toNat 24, by omega⟩ ⟨3, by omega⟩ ⟨2, by omega⟩) :=
  (tap_apply (val_main_v0 (F := Ideal) x0) (val_main_v7 (F := Ideal) x1 x2) 3 2 (by omega) (by omega)
    Facts₀.slices_S8x96x196x196_S8x96x192x192_0_0_3_2 Facts₀.slices_S8x192x192x5x5_S8x192x192x1x1_0_0_0_3_2
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 3 2 _ _)

theorem tap_3_3 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v140 (F := Ideal) x0 x1 x2 (ix4 b c h w)
      = Cert.ConvSpec.padded x0 b c (h.val + 3) (w.val + 3)
        * x1 (ix3 ⟨min (x2 (ix3 b h w)).toNat 24, by omega⟩ ⟨3, by omega⟩ ⟨3, by omega⟩) :=
  (tap_apply (val_main_v0 (F := Ideal) x0) (val_main_v7 (F := Ideal) x1 x2) 3 3 (by omega) (by omega)
    Facts₀.slices_S8x96x196x196_S8x96x192x192_0_0_3_3 Facts₀.slices_S8x192x192x5x5_S8x192x192x1x1_0_0_0_3_3
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 3 3 _ _)

theorem tap_3_4 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v147 (F := Ideal) x0 x1 x2 (ix4 b c h w)
      = Cert.ConvSpec.padded x0 b c (h.val + 3) (w.val + 4)
        * x1 (ix3 ⟨min (x2 (ix3 b h w)).toNat 24, by omega⟩ ⟨3, by omega⟩ ⟨4, by omega⟩) :=
  (tap_apply (val_main_v0 (F := Ideal) x0) (val_main_v7 (F := Ideal) x1 x2) 3 4 (by omega) (by omega)
    Facts₀.slices_S8x96x196x196_S8x96x192x192_0_0_3_4 Facts₀.slices_S8x192x192x5x5_S8x192x192x1x1_0_0_0_3_4
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 3 4 _ _)

theorem tap_4_0 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v154 (F := Ideal) x0 x1 x2 (ix4 b c h w)
      = Cert.ConvSpec.padded x0 b c (h.val + 4) (w.val + 0)
        * x1 (ix3 ⟨min (x2 (ix3 b h w)).toNat 24, by omega⟩ ⟨4, by omega⟩ ⟨0, by omega⟩) :=
  (tap_apply (val_main_v0 (F := Ideal) x0) (val_main_v7 (F := Ideal) x1 x2) 4 0 (by omega) (by omega)
    Facts₀.slices_S8x96x196x196_S8x96x192x192_0_0_4_0 Facts₀.slices_S8x192x192x5x5_S8x192x192x1x1_0_0_0_4_0
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 4 0 _ _)

theorem tap_4_1 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v161 (F := Ideal) x0 x1 x2 (ix4 b c h w)
      = Cert.ConvSpec.padded x0 b c (h.val + 4) (w.val + 1)
        * x1 (ix3 ⟨min (x2 (ix3 b h w)).toNat 24, by omega⟩ ⟨4, by omega⟩ ⟨1, by omega⟩) :=
  (tap_apply (val_main_v0 (F := Ideal) x0) (val_main_v7 (F := Ideal) x1 x2) 4 1 (by omega) (by omega)
    Facts₀.slices_S8x96x196x196_S8x96x192x192_0_0_4_1 Facts₀.slices_S8x192x192x5x5_S8x192x192x1x1_0_0_0_4_1
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 4 1 _ _)

theorem tap_4_2 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v168 (F := Ideal) x0 x1 x2 (ix4 b c h w)
      = Cert.ConvSpec.padded x0 b c (h.val + 4) (w.val + 2)
        * x1 (ix3 ⟨min (x2 (ix3 b h w)).toNat 24, by omega⟩ ⟨4, by omega⟩ ⟨2, by omega⟩) :=
  (tap_apply (val_main_v0 (F := Ideal) x0) (val_main_v7 (F := Ideal) x1 x2) 4 2 (by omega) (by omega)
    Facts₀.slices_S8x96x196x196_S8x96x192x192_0_0_4_2 Facts₀.slices_S8x192x192x5x5_S8x192x192x1x1_0_0_0_4_2
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 4 2 _ _)

theorem tap_4_3 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v175 (F := Ideal) x0 x1 x2 (ix4 b c h w)
      = Cert.ConvSpec.padded x0 b c (h.val + 4) (w.val + 3)
        * x1 (ix3 ⟨min (x2 (ix3 b h w)).toNat 24, by omega⟩ ⟨4, by omega⟩ ⟨3, by omega⟩) :=
  (tap_apply (val_main_v0 (F := Ideal) x0) (val_main_v7 (F := Ideal) x1 x2) 4 3 (by omega) (by omega)
    Facts₀.slices_S8x96x196x196_S8x96x192x192_0_0_4_3 Facts₀.slices_S8x192x192x5x5_S8x192x192x1x1_0_0_0_4_3
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 4 3 _ _)

theorem tap_4_4 (x0 : FVec Ideal S8x96x192x192 .f32) (x1 : FVec Ideal S25x5x5 .f32) (x2 : IVec S8x192x192 32) (hr : ∀ p : S8x192x192.Idx, (x2 p).toNat < 25)
    (b : Fin 8) (c : Fin 96) (h w : Fin 192) :
    val_main_v182 (F := Ideal) x0 x1 x2 (ix4 b c h w)
      = Cert.ConvSpec.padded x0 b c (h.val + 4) (w.val + 4)
        * x1 (ix3 ⟨min (x2 (ix3 b h w)).toNat 24, by omega⟩ ⟨4, by omega⟩ ⟨4, by omega⟩) :=
  (tap_apply (val_main_v0 (F := Ideal) x0) (val_main_v7 (F := Ideal) x1 x2) 4 4 (by omega) (by omega)
    Facts₀.slices_S8x96x196x196_S8x96x192x192_0_0_4_4 Facts₀.slices_S8x192x192x5x5_S8x192x192x1x1_0_0_0_4_4
    Facts₀.shapeCasts_S8x192x192x1x1_S8x192x192 Facts₀.bcast_S8x192x192_S8x1x192x192_0_2_3
    Facts₀.bcast_S8x1x192x192_S8x96x192x192_0_1_2_3 b c h w).trans (tap_val x0 x1 x2 hr b c h w 4 4 _ _)

/-! ## The 25 sums -/

theorem ref_eq_G (x0 : FVec Ideal S8x96x192x192 .f32) (x1 : FVec Ideal S25x5x5 .f32) (x2 : IVec S8x192x192 32)
    (hr : ∀ p : S8x192x192.Idx, (x2 p).toNat < 25) :
    val_main_v183 (F := Ideal) x0 x1 x2 = Cert.ConvSpec.G x0 x1 x2 := by
  funext y
  obtain ⟨b, c, h, w, rfl⟩ : ∃ b c h w, y = ix4 b c h w := ⟨y 0, y 1, y 2, y 3, eq_ix4 y⟩
  rw [Cert.ConvSpec.G_ix4]
  -- the first accumulator is zero everywhere
  have e8 : val_main_v8 (F := Ideal) (ix4 b c h w) = 0 := by
    rw [val_main_v8_apply]; exact Ideal.ofBits_zero_f32
  -- the result at the index is the 25 products added to it one after the other
  rw [
    val_main_v183_apply, val_main_v176_apply, val_main_v169_apply, val_main_v162_apply, val_main_v155_apply,
    val_main_v148_apply, val_main_v141_apply, val_main_v134_apply, val_main_v127_apply, val_main_v120_apply,
    val_main_v113_apply, val_main_v106_apply, val_main_v99_apply, val_main_v92_apply, val_main_v85_apply,
    val_main_v78_apply, val_main_v71_apply, val_main_v64_apply, val_main_v57_apply, val_main_v50_apply,
    val_main_v43_apply, val_main_v36_apply, val_main_v29_apply, val_main_v22_apply, val_main_v15_apply]
  simp only [Ideal.addf_def]
  rw [e8,
    tap_0_0 x0 x1 x2 hr, tap_0_1 x0 x1 x2 hr, tap_0_2 x0 x1 x2 hr, tap_0_3 x0 x1 x2 hr, tap_0_4 x0 x1 x2 hr,
    tap_1_0 x0 x1 x2 hr, tap_1_1 x0 x1 x2 hr, tap_1_2 x0 x1 x2 hr, tap_1_3 x0 x1 x2 hr, tap_1_4 x0 x1 x2 hr,
    tap_2_0 x0 x1 x2 hr, tap_2_1 x0 x1 x2 hr, tap_2_2 x0 x1 x2 hr, tap_2_3 x0 x1 x2 hr, tap_2_4 x0 x1 x2 hr,
    tap_3_0 x0 x1 x2 hr, tap_3_1 x0 x1 x2 hr, tap_3_2 x0 x1 x2 hr, tap_3_3 x0 x1 x2 hr, tap_3_4 x0 x1 x2 hr,
    tap_4_0 x0 x1 x2 hr, tap_4_1 x0 x1 x2 hr, tap_4_2 x0 x1 x2 hr, tap_4_3 x0 x1 x2 hr, tap_4_4 x0 x1 x2 hr]
  rfl

end Cert.ReferenceIdeal.RefValue

end
-- ==== Proof.PreDecode.lean ====
/-
  What the precondition says of the filter numbers: every entry of the integer input is at least zero and below 25 as a
  signed number, so its unsigned value is below 25.
-/
import proofs.«427401_j73057393705079_3_alg».proof.Pre_finite_inputs
import proofs.«427401_j73057393705079_3_alg».proof.Proof.Gen.Pre_finite_inputs
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx Cert.Pre_finite_inputs

/-- A 32-bit word that is at least 0 and below 25 when read signed has its top bit clear, so its unsigned value is the
    signed one: below 25. -/
theorem word_lt (x : BitVec 32) (hge : IntOp.cmpi .sge x 0#32 = 1#1) (hlt : IntOp.cmpi .slt x 25#32 = 1#1) :
    x.toNat < 25 := by
  rw [IntOp.cmpi_sge, show (0#32 : BitVec 32).toInt = 0 from by decide] at hge
  rw [IntOp.cmpi_slt, show (25#32 : BitVec 32).toInt = 25 from by decide] at hlt
  rw [BitVec.toInt_eq_toNat_cond] at hge hlt
  have hx := x.isLt
  split at hge <;> omega

/-- The rank-0 shape has one index. -/
instance subsingleton_scalar_idx : Subsingleton S_.Idx := ⟨fun a b => funext fun d => d.elim0⟩

theorem buckets_lt [Cert.Pre_finite_inputs.Facts]
    (a0 : FVec Ideal S8x96x192x192 .f32) (a1 : FVec Ideal S25x5x5 .f32) (a2 : IVec S8x192x192 32)
    (h : Cert.Pre_finite_inputs.fn (F := Ideal) a0 a1 a2 = fun _ => 1#1) :
    ∀ p : S8x192x192.Idx, (a2 p).toNat < 25 := by
  intro p
  -- the predicate's one element: the conjunction of the three "all" reductions
  have h15 := congrFun h ValueIdx.ix0
  unfold Cert.Pre_finite_inputs.fn at h15
  -- its last conjunct: the "all" over the integer input of (0 ≤ entry) and (entry < 25)
  obtain ⟨-, h14⟩ := IntOp.andi_eq_one.1 h15
  -- so the compared bit is set at every entry
  have h13 := Host.reduce_andi_all _ _ _ _ _ h14 p
  obtain ⟨hge, hlt⟩ := IntOp.andi_eq_one.1 h13
  -- the two splats read 0 and 25 at p
  exact word_lt (a2 p) hge hlt

end Cert.PreDecode

end
-- ==== Proof.lean ====
/-
  A 5 × 5 depthwise correlation whose filter is chosen per pixel from a bank of 25: for an image x of shape
  [8, 96, 192, 192], a bank of shape [25, 5, 5] and filter numbers n of shape [8, 192, 192], the result at (b, c, h, w)
  is the sum over (i, j) of xpad[b, c, h + i, w + j] · bank[n[b, h, w], i, j], where xpad is x with two zero rows and
  columns on every side. The precondition asks that the float inputs be finite and that every filter number lie in
  [0, 25); only the second part is used: the two programs add the same 25 products in the same order, so no law of the
  extended reals is needed, but outside [0, 25) the reference wraps or caps the number where the kernel selects nothing.

  The kernel works one image and sixteen channels at a time: it writes the padded planes into a scratch, and in 24
  trips of eight rows picks the filters by a product of one-hot rows with the flattened bank and accumulates the 25
  taps (KernelPay: one trip's value at an index; KernelBlock, KernelBlockValue: the 24 stores tile the output block
  with one function; KernelArray: the 48 blocks tile the result array with the specification ConvSpec.G). The
  reference pads, gathers and adds the 25 shifted products over the whole arrays (RefRun: its run, window by window;
  RefRead, RefReadEq: its result one operation at a time; RefValue: that result is G).
  PreDecode reads the range of the filter numbers off the precondition.
-/
import proofs.«427401_j73057393705079_3_alg».proof.Defs
import proofs.«427401_j73057393705079_3_alg».proof.Proof.Gen.Kernel
import proofs.«427401_j73057393705079_3_alg».proof.Proof.Gen.Kernel.Frame
import proofs.«427401_j73057393705079_3_alg».proof.Proof.Gen.KernelIdeal
import proofs.«427401_j73057393705079_3_alg».proof.Proof.Gen.KernelIdeal.Frame
import proofs.«427401_j73057393705079_3_alg».proof.Proof.Gen.KernelIdeal.Value
import proofs.«427401_j73057393705079_3_alg».proof.Proof.Gen.ReferenceIdeal
import proofs.«427401_j73057393705079_3_alg».proof.Proof.RefRun
import proofs.«427401_j73057393705079_3_alg».proof.Proof.RefRead
import proofs.«427401_j73057393705079_3_alg».proof.Proof.RefReadEq
import proofs.«427401_j73057393705079_3_alg».proof.Proof.Gen.Pre_finite_inputs
import proofs.«427401_j73057393705079_3_alg».proof.Proof.KernelArray
import proofs.«427401_j73057393705079_3_alg».proof.Proof.RefValue
import proofs.«427401_j73057393705079_3_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- Both programs end with the specification of the arguments: the kernel block by block, the reference tap by tap;
    the filter numbers are below 25 by the precondition. -/
theorem algebraic : Cert.algebraic_KernelIdeal_ReferenceIdeal := by
  intro m ρ m' ρ' hpre hagree
  have hr : ∀ (c : Dev Cert.KernelIdeal.nD) p, (Cert.KernelIdeal.Arr.narr m c p).toNat < 25 :=
    fun c => Cert.PreDecode.buckets_lt _ _ _ (hpre c)
  refine ⟨fun c => Cert.ConvSpec.G (Cert.KernelIdeal.Arr.xarr m c) (Cert.KernelIdeal.Arr.bankarr m c) (Cert.KernelIdeal.Arr.narr m c),
    Cert.KernelIdeal.Arr.run m ρ hr, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v183_eq, (hagree c).1, (hagree c).2.1, (hagree c).2.2]
  exact Cert.ReferenceIdeal.RefValue.ref_eq_G _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
